-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x4096 .f32) (main_arg1 : FVec F S4096x1024 .f32) (main_arg2 : FVec F S1024 .f32) (main_arg3 : FVec F S1024x64 .f32) (main_arg4 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S8192x4096 : Shape := ⟨2, ![8192, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S1x64 : Shape := ⟨2, ![1, 64]⟩
abbrev S8192x64 : Shape := ⟨2, ![8192, 64]⟩
abbrev S512x64 : Shape := ⟨2, ![512, 64]⟩
abbrev S_ : Shape := ⟨0, ![]⟩
abbrev S512x4096 : Shape := ⟨2, ![512, 4096]⟩
abbrev S2x512x1024 : Shape := ⟨3, ![2, 512, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S1024x64, .f32⟩
  | .hbm, ⟨4, _⟩ => ⟨S64, .f32⟩
  | .hbm, ⟨5, _⟩ => ⟨S1x1024, .f32⟩
  | .hbm, ⟨6, _⟩ => ⟨S1x64, .f32⟩
  | .hbm, ⟨7, _⟩ => ⟨S1024x64, .bf16⟩
  | .hbm, ⟨8, _⟩ => ⟨S8192x64, .f32⟩
  | .hbm, ⟨9, _⟩ => ⟨S512x64, .f32⟩
  | .hbm, ⟨10, _⟩ => ⟨S_, .i32⟩
  | .hbm, ⟨11, _⟩ => ⟨S_, .i32⟩
  | .hbm, ⟨12, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S4096x1024, .f32⟩
  | .local _ .vmem, ⟨3, _⟩ => ⟨S1x1024, .f32⟩
  | .local _ .vmem, ⟨4, _⟩ => ⟨S1024x64, .bf16⟩
  | .local _ .vmem, ⟨5, _⟩ => ⟨S1x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S2x512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3_0 : Ref sig .tc := ⟨.hbm, 8, rfl⟩
abbrev main_call0_v3_1 : Ref sig .tc := ⟨.hbm, 9, rfl⟩
abbrev main_call0_c : Ref sig .tc := ⟨.hbm, 10, rfl⟩
abbrev main_call0_c_0 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v3 : BitVec 32 := Scalar.addi arg0 c1_i32
  let c2_i32 : BitVec 32 := 2#32
  let c0_i32 : BitVec 32 := 0#32
  let v4 : BitVec 1 := Scalar.cmpi .eq c2_i32 c0_i32
  let c1_i32_3 : BitVec 32 := 1#32
  let v5 : BitVec 32 := Scalar.select v4 c1_i32_3 c2_i32
  let v6 : BitVec 32 := Scalar.remsi v3 v5
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let c0_i32_4 : BitVec 32 := 0#32
  let v7 : BitVec 1 := Scalar.cmpi .ne v6 c0_i32_4
  let v11 : BitVec 1 := Scalar.andi v10 v7
  let v12 : BitVec 32 := Scalar.addi v6 v5
  let v13 : BitVec 32 := Scalar.select v11 v12 v6
  let v14 : Index := Scalar.indexCast v13
  let c0_7 : Index := 0#32
  let c0_8 : Index := 0#32
  ![v14.toNat, 0, 0]
def k0_off2 (i : grid0.Coords) : Fin 3 → Nat :=
  let arg0 : BitVec 32 := BitVec.ofNat 32 (i 0).val
  let c2_i32_21 : BitVec 32 := 2#32
  let c0_i32_22 : BitVec 32 := 0#32
  let v39 : BitVec 1 := Scalar.cmpi .eq c2_i32_21 c0_i32_22
  let c1_i32_23 : BitVec 32 := 1#32
  let v40 : BitVec 32 := Scalar.select v39 c1_i32_23 c2_i32_21
  let v41 : BitVec 32 := Scalar.remsi arg0 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let v49 : Index := Scalar.indexCast v48
  let c0_27 : Index := 0#32
  let c0_28 : Index := 0#32
  ![v49.toNat, 0, 0]
def k0_cond1 (i : grid0.Coords) : BitVec 1 :=
  let arg0 : BitVec 32 := BitVec.ofNat 32 (i 0).val
  let c15_i32 : BitVec 32 := 15#32
  let v53 : BitVec 1 := Scalar.cmpi .eq arg0 c15_i32
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S1024_S1x1024 : S1024.ShapeCasts S1x1024
  shapeCasts_S64_S1x64 : S64.ShapeCasts S1x64
  bitsLt_bf16_f32 : FTy.bits .bf16 < FTy.bits .f32
  updateFits_S8192x64_S512x64 : S8192x64.Slices (fun _ => 0) S512x64
  h_S_ : 0 < S_.numel
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  h_S1x512x1024 : 0 < S1x512x1024.numel
  shapeCasts_S1x512x1024_S512x1024 : S1x512x1024.ShapeCasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x4096_S4096x1024_S512x1024_1_0_0_1_n_n_wf : DotDims.WF S512x4096 S4096x1024 S512x1024 [1] [0] [0] [1] [] []
  dot_S512x1024_S1024x64_S512x64_1_0_0_1_n_n_wf : DotDims.WF S512x1024 S1024x64 S512x64 [1] [0] [0] [1] [] []
  hrank0 : 0 < grid0.rank
  k0_off1_inb : ∀ i : grid0.Coords, ∀ a, (k0_off1 i) a + S1x512x1024.size a ≤ S2x512x1024.size a
  k0_off2_inb : ∀ i : grid0.Coords, ∀ a, (k0_off2 i) a + S1x512x1024.size a ≤ S2x512x1024.size a
  k0_off2_packedbf16 : ∀ i : grid0.Coords, (Rect.unit (s := S2x512x1024) (k0_off2 i) S1x512x1024.size (k0_off2_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .bf16 = 32 ∨ (Rect.block (s := S1024x64) S1024x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S8192x64.size a
  hwx0_5 : ∀ i : grid0.Coords, EltTy.bits .f32 = 32 ∨ (Rect.block (s := S8192x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .f32 = 32 ∨ (Rect.block (s := S512x64) S512x64.size (cc0_transform_6 i) (hinb0_6 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_0) S512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3_1) S512x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S8192x1024 : Shape := ⟨2, ![8192, 1024]⟩
abbrev S1x1024 : Shape := ⟨2, ![1, 1024]⟩
abbrev S_ : Shape := ⟨0, ![]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S1024x64, .f32⟩
  | .hbm, ⟨4, _⟩ => ⟨S64, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x4096_S4096x1024_S8192x1024_1_0_0_1_n_n_wf : DotDims.WF S8192x4096 S4096x1024 S8192x1024 [1] [0] [0] [1] [] []
  dot_S8192x1024_S1024x64_S8192x64_1_0_0_1_n_n_wf : DotDims.WF S8192x1024 S1024x64 S8192x64 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf

class Facts : Prop extends Facts₀ where

variable [Facts]
-- ==== Proof.GateBody.lean ====
/-
  One grid point of the gating kernel, run once at symbolic operands.

  The body multiplies its block of 512 token rows by the first weight matrix, reads the OTHER parity's slot of a
  two-slot scratch (what the previous grid point kept there), turns that slot into gates (second matrix product,
  bias, exponentials normalised by their row sum) and stores them whole into the first output's buffer; then it
  adds the first bias, applies the ReLU and keeps the block in its own parity's slot. At the last grid point it
  also turns its own block into gates and stores them whole into the second output's buffer; elsewhere that buffer
  is left as found. Every input buffer is handed back as it was.
-/
import proofs.«114928_g52183852646652_cont_8to1_c_617_24_alg».proof.Proof.Gen.KernelIdeal.Launch
import proofs.«114928_g52183852646652_cont_8to1_c_617_24_alg».proof.Proof.Gen.KernelIdeal.Skeleton
import proofs.«114928_g52183852646652_cont_8to1_c_617_24_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- One store through a rectangle leaves the payload on the rectangle and the earlier contents off it. -/
theorem read_writes_one {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem v f y _ (by
        intro p hp; rw [List.mem_singleton] at hp; subst hp; exact hy), Rect.overlay_of_not_mem _ _ _ hy]

theorem zero2 : (![0, 0] : Fin 2 → Nat) = fun _ => 0 := by funext a; fin_cases a <;> rfl

/-- The scratch slot a grid point reads: the other parity's. -/
abbrev readSlot (i : grid0.Coords) (xs : Vec F S2x512x1024 .bf16) : Vec F S1x512x1024 .bf16 :=
  View.ld xs (Rect.unit (s := S2x512x1024) (k0_off1 i) S1x512x1024.size (Facts₀.k0_off1_inb i))

/-- The scratch after a grid point has kept `w` in its own parity's slot. -/
abbrev writeSlot (i : grid0.Coords) (xs : Vec F S2x512x1024 .bf16) (w : Vec F S1x512x1024 .bf16) : Vec F S2x512x1024 .bf16 :=
  (Rect.unit (s := S2x512x1024) (k0_off2 i) S1x512x1024.size (Facts₀.k0_off2_inb i)).overlay xs w

set_option maxHeartbeats 1000000 in
/-- Every grid point but the last: the first output's buffer ends at the gates of the slot read, the scratch with
    this block's ReLU layer kept in its own slot, the second output's buffer and the inputs as found. -/
theorem kernelRun_mid (c : Dev nD) (i : grid0.Coords)
    (arg1 : Memref sig .tc .vmem S512x4096 .f32) (harg1 : arg1.IsWhole) (arg2 : Memref sig .tc .vmem S4096x1024 .f32) (harg2 : arg2.IsWhole)
    (arg3 : Memref sig .tc .vmem S1x1024 .f32) (harg3 : arg3.IsWhole) (arg4 : Memref sig .tc .vmem S1024x64 .bf16) (harg4 : arg4.IsWhole)
    (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg8 : Memref sig .tc .vmem S2x512x1024 .bf16) (harg8 : arg8.IsWhole)
    (hc : ¬ (k0_cond1 i = 1#1))
    (x0 : Vec F S512x4096 .f32) (x1 : Vec F S4096x1024 .f32) (x2 : Vec F S1x1024 .f32) (x3 : Vec F S1024x64 .bf16) (x4 : Vec F S1x64 .f32)
    (d6 : Vec F S512x64 .f32) (d7 : Vec F S512x64 .f32) (xs : Vec F S2x512x1024 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay5 (readSlot i xs) x3 x4) ∗ owns (c : Thread nD τ) arg7 fullShare d7
            ∗ owns (c : Thread nD τ) arg8 fullShare (writeSlot i xs (k0_pay2 (k0_pay4 x0 x1) x2))) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := exact hc)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H6]
  · iexists _; isplitr; swap; (· iexact H6)
    ipureintro
    rw [View.read_writes_eq_canon _ _ _ (fun y => ⟨_, List.mem_singleton_self _, View.mem_set_unit_zero zero2 Facts₀.inb_S512x64_S512x64_0_0 y⟩),
      View.canon_unit_zero zero2]
    simp only [View.readAt_eq_ld, harg8.read_unread, harg4.read_unread, harg5.read_unread,
      View.ld_unit_zero (S := S1024x64) zero2, View.ld_unit_zero (S := S1x64) zero2]
  isplitl [H7]; · iexists _; isplitr; · ipureintro; exact hf7
                  iexact H7
  iexists _; isplitr; swap; (· iexact HS)
  ipureintro
  rw [read_writes_one, harg8.read_unread]
  sl_unfold_words
  simp only [View.readAt_eq_ld, harg1.read_unread, harg2.read_unread, harg3.read_unread,
    View.ld_unit_zero (S := S512x4096) zero2, View.ld_unit_zero (S := S4096x1024) zero2, View.ld_unit_zero (S := S1x1024) zero2]
  rfl

set_option maxHeartbeats 1000000 in
/-- The last grid point: as every other, and the second output's buffer ends at the gates of this block itself. -/
theorem kernelRun_last (c : Dev nD) (i : grid0.Coords)
    (arg1 : Memref sig .tc .vmem S512x4096 .f32) (harg1 : arg1.IsWhole) (arg2 : Memref sig .tc .vmem S4096x1024 .f32) (harg2 : arg2.IsWhole)
    (arg3 : Memref sig .tc .vmem S1x1024 .f32) (harg3 : arg3.IsWhole) (arg4 : Memref sig .tc .vmem S1024x64 .bf16) (harg4 : arg4.IsWhole)
    (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg8 : Memref sig .tc .vmem S2x512x1024 .bf16) (harg8 : arg8.IsWhole)
    (hc : k0_cond1 i = 1#1)
    (x0 : Vec F S512x4096 .f32) (x1 : Vec F S4096x1024 .f32) (x2 : Vec F S1x1024 .f32) (x3 : Vec F S1024x64 .bf16) (x4 : Vec F S1x64 .f32)
    (d6 : Vec F S512x64 .f32) (d7 : Vec F S512x64 .f32) (xs : Vec F S2x512x1024 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay5 (readSlot i xs) x3 x4)
            ∗ owns (c : Thread nD τ) arg7 fullShare (k0_pay3 (k0_pay4 x0 x1) x2 x3 x4)
            ∗ owns (c : Thread nD τ) arg8 fullShare (writeSlot i xs (k0_pay2 (k0_pay4 x0 x1) x2))) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := exact hc)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H6]
  · iexists _; isplitr; swap; (· iexact H6)
    ipureintro
    rw [View.read_writes_eq_canon _ _ _ (fun y => ⟨_, List.mem_singleton_self _, View.mem_set_unit_zero zero2 Facts₀.inb_S512x64_S512x64_0_0 y⟩),
      View.canon_unit_zero zero2]
    simp only [View.readAt_eq_ld, harg8.read_unread, harg4.read_unread, harg5.read_unread,
      View.ld_unit_zero (S := S1024x64) zero2, View.ld_unit_zero (S := S1x64) zero2]
  isplitl [H7]
  · iexists _; isplitr; swap; (· iexact H7)
    ipureintro
    rw [View.read_writes_eq_canon _ _ _ (fun y => ⟨_, List.mem_singleton_self _, View.mem_set_unit_zero zero2 Facts₀.inb_S512x64_S512x64_0_0 y⟩),
      View.canon_unit_zero zero2]
    sl_unfold_words
    simp only [View.readAt_eq_ld, harg1.read_unread, harg2.read_unread, harg3.read_unread, harg4.read_unread, harg5.read_unread,
      View.ld_unit_zero (S := S512x4096) zero2, View.ld_unit_zero (S := S4096x1024) zero2, View.ld_unit_zero (S := S1x1024) zero2,
      View.ld_unit_zero (S := S1024x64) zero2, View.ld_unit_zero (S := S1x64) zero2]
  iexists _; isplitr; swap; (· iexact HS)
  ipureintro
  rw [read_writes_one, harg8.read_unread]
  sl_unfold_words
  simp only [View.readAt_eq_ld, harg1.read_unread, harg2.read_unread, harg3.read_unread,
    View.ld_unit_zero (S := S512x4096) zero2, View.ld_unit_zero (S := S4096x1024) zero2, View.ld_unit_zero (S := S1x1024) zero2]
  rfl

/-- Reading back the slot a grid point has just written gives what it wrote. -/
theorem ld_overlay_self {S : Shape} {Val : EltTy → Type} {e : EltTy} (r : Rect S) (X : S.Idx → Val e) (w : r.shape.Idx → Val e) :
    View.ld (r.overlay X w) r = w := by
  funext x
  show r.overlay X w (r.idx x) = w x
  rw [show r.idx x = r.emb x from rfl, Rect.overlay_emb]

/-- A load through a rectangle reads the same through an equal offset, whatever the in-bounds evidence. -/
theorem ld_unit_congr {S : Shape} {Val : EltTy → Type} {e : EltTy} (X : S.Idx → Val e) {off off' : Fin S.rank → Nat} (h : off = off') (size : Fin S.rank → Nat)
    (inb : ∀ a, off a + size a ≤ S.size a) (inb' : ∀ a, off' a + size a ≤ S.size a) :
    HEq (View.ld X (Rect.unit off size inb)) (View.ld X (Rect.unit off' size inb')) := by
  subst h; rfl

end Cert.KernelIdeal.Hand

end
-- ==== Proof.GateBlocks.lean ====
/-
  Names for what the gating kernel's pipeline moves, at the buffers' literal types.

  The region finds the token array, the first weight matrix, and three arrays the host made just before it (the two
  biases as rows, the second weight matrix narrowed). Point `t` of the grid reads the token block `t`; it keeps
  that block's ReLU layer (`keptBlk t`) for the next point, which turns it into block `t`'s gates (`outBlk t`) and
  writes them back as block `t` of the first output; the last point also makes its own block's gates (`lastBlk`),
  the whole of the second output. After the region the host splices the second output into the last 512 rows of the
  first: that is the program's result (`finalOut`).
-/
import proofs.«114928_g52183852646652_cont_8to1_c_617_24_alg».proof.Proof.Gen.KernelIdeal.Launch
import proofs.«114928_g52183852646652_cont_8to1_c_617_24_alg».proof.Proof.Gen.KernelIdeal.Skeleton
import proofs.«114928_g52183852646652_cont_8to1_c_617_24_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The buffers' contents when the region is entered: the launch contents after the three host operations before it. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The token block of point `t`; the two weight matrices and the two bias rows (whole arrays, one block each). -/
abbrev xBlk (c : Dev nD) (t : Fin cfg0.N) : Vec F S512x4096 .f32 := iblk m c 0 t
abbrev w1Blk (c : Dev nD) : Vec F S4096x1024 .f32 := iblk m c 1 t0_0
abbrev b1Blk (c : Dev nD) : Vec F S1x1024 .f32 := iblk m c 2 t0_0
abbrev w2Blk (c : Dev nD) : Vec F S1024x64 .bf16 := iblk m c 3 t0_0
abbrev b2Blk (c : Dev nD) : Vec F S1x64 .f32 := iblk m c 4 t0_0

/-- What point `t` keeps in its scratch slot: its block's ReLU layer. -/
abbrev keptBlk (c : Dev nD) (t : Fin cfg0.N) : Vec F S1x512x1024 .bf16 := k0_pay2 (k0_pay4 (xBlk m c t) (w1Blk m c)) (b1Blk m c)
/-- The gates of block `p`, computed one point later from the kept slot. -/
abbrev outBlk (c : Dev nD) (p : Fin cfg0.N) : Vec F S512x64 .f32 := k0_pay5 (keptBlk m c p) (w2Blk m c) (b2Blk m c)
/-- The gates of block `t` computed at point `t` itself (the last point's). -/
abbrev lastBlk (c : Dev nD) (t : Fin cfg0.N) : Vec F S512x64 .f32 := k0_pay3 (k0_pay4 (xBlk m c t) (w1Blk m c)) (b1Blk m c) (w2Blk m c) (b2Blk m c)

/-- The grid has sixteen points. -/
theorem N16 : cfg0.N = 16 := N_0

/-- Row `q` of token block `p`, as a row of the whole token array. -/
def rowOf (p : Fin cfg0.N) (q : Fin 512) : Fin 8192 := ⟨512 * p.val + q.val, by have h : p.val < 16 := Nat.lt_of_lt_of_eq p.isLt N16; omega⟩

/-- The point before `t` (the first point's own, where there is none: its contents are never written back). -/
abbrev predPt (t : Fin cfg0.N) : Fin cfg0.N := ⟨t.val - 1, Nat.lt_of_le_of_lt (Nat.sub_le _ _) t.isLt⟩

/-- Every window's buffer after the body at each point, named: the inputs as fetched, the first output at the gates of
    the block before, the second output at the point's own block's gates. Only what the pipeline writes back of it is
    ever read: the first output's at points 1 to 15, the second's at the last point. -/
def datX (c : Dev nD) : Dat τ (Elt F) Unit ℕ (UR sig nD τ) ℕ cfg0 c where
  A w := V m c (Pipeline.arrRef spec0 w)
  after w t := match w with
    | ⟨0, _⟩ => xBlk m c t
    | ⟨1, _⟩ => w1Blk m c
    | ⟨2, _⟩ => b1Blk m c
    | ⟨3, _⟩ => w2Blk m c
    | ⟨4, _⟩ => b2Blk m c
    | ⟨5, _⟩ => outBlk m c (predPt t)
    | ⟨6, _⟩ => lastBlk m c t
    | ⟨_ + 7, h⟩ => absurd h (Nat.not_lt.2 (Nat.le_add_left _ _))
  Φ _ := iprop(emp)
  q _ := fullShare
  owed _ := 0

/-- The two outputs' arrays when the region ends. -/
def outArr (c : Dev nD) : Buf (Elt F) ((c : Thread nD τ).loc main_call0_v3_0) := (datX m c).arrAt 5 cfg0.N
def lastArr (c : Dev nD) : Buf (Elt F) ((c : Thread nD τ).loc main_call0_v3_1) := (datX m c).arrAt 6 cfg0.N

/-- The buffers' contents when the region ends: as at its entry, the two outputs at what the pipeline wrote. -/
def W1 (c : Dev nD) : Valuation τ sig (Elt F) :=
  Function.update (Function.update (V0 m c) (Proc.devRef .tc main_call0_v3_0) (outArr m c)) (Proc.devRef .tc main_call0_v3_1) (lastArr m c)

/-- The program's result: the second output spliced into the first by the three host operations after the region. -/
def finalOut (c : Dev nD) : Buf (Elt F) ((c : Thread nD τ).loc main_v0) := StableHlo.after hostOps1 (W1 m c) (Proc.devRef .tc main_v0)

end Cert.KernelIdeal.Hand

end
-- ==== Proof.GateData.lean ====
/-
  The pipeline's proof data for the gating kernel, and the body's obligation against it.

  Between grid points the kernel keeps, in a two-slot scratch, the ReLU layer of the block it has just multiplied:
  before point `t` the slot that point `t - 1` wrote holds that point's block (nothing is known before the first
  point: the scratch then holds whatever the machine left there). Point `t` turns the slot it reads into the gates of
  block `t - 1` and leaves them in the first output's buffer; at the first point the slot is not yet written, so
  nothing is said of what the buffer then holds — that point does not write its block back. The last point leaves its
  own block's gates in the second output's buffer. The weight and bias buffers are fetched once and left as found.
-/
import proofs.«114928_g52183852646652_cont_8to1_c_617_24_alg».proof.Proof.GateBody
import proofs.«114928_g52183852646652_cont_8to1_c_617_24_alg».proof.Proof.GateBlocks
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The slot of the scratch `xs` that point `p` writes. -/
abbrev slotOf (p : Fin cfg0.N) (xs : Vec F S2x512x1024 .bf16) : Vec F S1x512x1024 .bf16 :=
  View.ld xs (Rect.unit (s := S2x512x1024) (k0_off2 (grid0.coords p)) S1x512x1024.size (Facts₀.k0_off2_inb (grid0.coords p)))

/-- The proof data on core `c`. -/
def rdat (c : Dev nD) : RDat τ (Elt F) Unit ℕ (UR sig nD τ) ℕ cfg0 c where
  A w := V m c (Pipeline.arrRef spec0 w)
  after w t Y X := match w with
    | ⟨0, _⟩ => True
    | ⟨1, _⟩ => X = Y
    | ⟨2, _⟩ => X = Y
    | ⟨3, _⟩ => X = Y
    | ⟨4, _⟩ => X = Y
    | ⟨5, _⟩ => ∀ p : Fin cfg0.N, p.val + 1 = t.val → X = outBlk m c p
    | ⟨6, _⟩ => k0_cond1 (grid0.coords t) = 1#1 → X = lastBlk m c t
    | ⟨_ + 7, h⟩ => absurd h (Nat.not_lt.2 (Nat.le_add_left _ _))
  Φ t := iprop(∃ xs : Vec F S2x512x1024 .bf16, owns (c : Thread nD τ) (Memref.whole cc0_scratch0) fullShare xs
      ∗ ⌜∀ p : Fin cfg0.N, p.val + 1 = t.val → slotOf p xs = keptBlk m c p⌝)
  q _ := fullShare
  owed _ := 0

/-! ## The schedule's facts, decided over the grid -/

theorem flush0_in1 : ∀ t : Fin cfg0.N, (cfg0.win 1).flush t = false := (by decide +kernel : ∀ t : Fin grid0.N, win0_1.flush t = false)
theorem flush0_in2 : ∀ t : Fin cfg0.N, (cfg0.win 2).flush t = false := (by decide +kernel : ∀ t : Fin grid0.N, win0_2.flush t = false)
theorem flush0_in3 : ∀ t : Fin cfg0.N, (cfg0.win 3).flush t = false := (by decide +kernel : ∀ t : Fin grid0.N, win0_3.flush t = false)
theorem flush0_in4 : ∀ t : Fin cfg0.N, (cfg0.win 4).flush t = false := (by decide +kernel : ∀ t : Fin grid0.N, win0_4.flush t = false)

/-- The slot a point reads is the slot the point before it wrote. -/
theorem off1_eq_off2_pred : ∀ t p : Fin grid0.N, p.val + 1 = t.val → k0_off1 (grid0.coords t) = k0_off2 (grid0.coords p) := by decide +kernel

/-! ## What the body finds in the input buffers -/

/-- A window fetched at the first point only, never written back, whose buffer the body leaves as found, holds at
    every point what that one fetch brought. -/
theorem finds_held (c : Dev nD) (w : Fin cfg0.W) (hfl : ∀ t, (cfg0.win w).flush t = false)
    (hfe : ∀ t : Fin cfg0.N, (cfg0.win w).fetch t = true ↔ t.val % 16 = 0)
    (hafter : ∀ t Y X, (rdat m c).after w t Y X → X = Y) :
    ∀ (n : ℕ) (h : n < cfg0.N) (X : (cfg0.win w).block.Idx → Elt F (cfg0.win w).elt),
      (rdat m c).Finds w ⟨n, h⟩ X → ∃ d, X = (rdat m c).fetched w t0_0 d := by
  intro n
  induction n with
  | zero =>
    intro h X hX
    rw [RDat.finds_of_fetch _ ((hfe ⟨0, h⟩).mpr rfl)] at hX
    exact hX
  | succ n ih =>
    intro h X hX
    have hN : n + 1 < 16 := Nat.lt_of_lt_of_eq h N16
    have hnf : (cfg0.win w).fetch ⟨n + 1, h⟩ = false := by
      cases hq : (cfg0.win w).fetch ⟨n + 1, h⟩ with
      | false => rfl
      | true => have := (hfe ⟨n + 1, h⟩).mp hq; simp only at this; omega
    rw [RDat.finds_of_pos _ hnf (by simp)] at hX
    rcases hX with hX | ⟨Y, hY, hYX⟩
    · rw [hfl] at hX; exact absurd hX Bool.false_ne_true
    · have e := hafter _ Y X hYX
      subst e
      exact ih (by omega) _ (by simpa using hY)

/-! ## The body obligation -/

theorem finds0 (c : Dev nD) (t : Fin cfg0.N) (X : (cfg0.win 0).block.Idx → Elt F (cfg0.win 0).elt)
    (h : (rdat m c).Finds 0 t X) : X = xBlk m c t := by
  rw [RDat.finds_of_fetch _ (fetch0_0 t)] at h
  obtain ⟨d, rfl⟩ := h
  rfl

theorem finds1 (c : Dev nD) (t : Fin cfg0.N) (X : (cfg0.win 1).block.Idx → Elt F (cfg0.win 1).elt)
    (h : (rdat m c).Finds 1 t X) : X = w1Blk m c := by
  obtain ⟨d, rfl⟩ := finds_held m c 1 flush0_in1 fetch0_1 (fun _ _ _ h => h) t.val t.isLt X h
  rfl

theorem finds2 (c : Dev nD) (t : Fin cfg0.N) (X : (cfg0.win 2).block.Idx → Elt F (cfg0.win 2).elt)
    (h : (rdat m c).Finds 2 t X) : X = b1Blk m c := by
  obtain ⟨d, rfl⟩ := finds_held m c 2 flush0_in2 fetch0_2 (fun _ _ _ h => h) t.val t.isLt X h
  rfl

theorem finds3 (c : Dev nD) (t : Fin cfg0.N) (X : (cfg0.win 3).block.Idx → Elt F (cfg0.win 3).elt)
    (h : (rdat m c).Finds 3 t X) : X = w2Blk m c := by
  obtain ⟨d, rfl⟩ := finds_held m c 3 flush0_in3 fetch0_3 (fun _ _ _ h => h) t.val t.isLt X h
  rfl

theorem finds4 (c : Dev nD) (t : Fin cfg0.N) (X : (cfg0.win 4).block.Idx → Elt F (cfg0.win 4).elt)
    (h : (rdat m c).Finds 4 t X) : X = b2Blk m c := by
  obtain ⟨d, rfl⟩ := finds_held m c 4 flush0_in4 fetch0_4 (fun _ _ _ h => h) t.val t.isLt X h
  rfl

set_option maxHeartbeats 1000000 in
/-- At every point the body runs from the invariant and the buffers as found to the next point's invariant and every
    buffer in its window's relation to what was found. -/
theorem body_obligation (c : Dev nD) : (rdat m c).BodyObligation (defs₀ (F := F)) Variants.none () Set.univ := by
  intro t Y hY
  have e0 := finds0 m c t _ (hY 0)
  have e1 := finds1 m c t _ (hY 1)
  have e2 := finds2 m c t _ (hY 2)
  have e3 := finds3 m c t _ (hY 3)
  have e4 := finds4 m c t _ (hY 4)
  rw [bigSep_W0, bigSep_W0]
  rw [e0, e1, e2, e3, e4]
  dsimp only [rdat]
  unfold RDat.owesAt Pipeline.owesWithin
  show _ ⊢ wp frame (wpE (defs₀ (F := F)) Variants.none c none) Set.univ (bodyAt0 t) _
  iintro ⟨⟨%xs, Hs, %hinv⟩, ⟨%W, %hW, HO⟩, H0, H1, H2, H3, H4, H5, H6⟩
  by_cases hc : k0_cond1 (grid0.coords t) = 1#1
  · iapply (kernelRun_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) hc (xBlk m c t) (w1Blk m c) (b1Blk m c) (w2Blk m c) (b2Blk m c) (Y 5) (Y 6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs]
    · iexists _; isplitl [Hs]; · iexact Hs
      ipureintro
      intro p hp
      have hpt : p = t := Fin.ext (by simpa using hp)
      subst hpt
      exact ld_overlay_self _ _ _
    isplitl [HO]
    · iexists W; isplitr; · ipureintro; exact fun _ _ => Or.inl trivial
      iexact HO
    isplitl [H0]; · iexists _; isplitr; · ipureintro; trivial
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]
    · iexists _; isplitr; swap; (· iexact H5)
      ipureintro
      intro p hp
      have hs := hinv p (by simpa using hp)
      rw [show readSlot (grid0.coords t) xs = slotOf p xs from
        eq_of_heq (ld_unit_congr xs (off1_eq_off2_pred t p hp) _ _ _), hs]
    iexists _; isplitr; swap; (· iexact H6)
    ipureintro
    intro _; rfl
  · iapply (kernelRun_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) hc (xBlk m c t) (w1Blk m c) (b1Blk m c) (w2Blk m c) (b2Blk m c) (Y 5) (Y 6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs]
    · iexists _; isplitl [Hs]; · iexact Hs
      ipureintro
      intro p hp
      have hpt : p = t := Fin.ext (by simpa using hp)
      subst hpt
      exact ld_overlay_self _ _ _
    isplitl [HO]
    · iexists W; isplitr; · ipureintro; exact fun _ _ => Or.inl trivial
      iexact HO
    isplitl [H0]; · iexists _; isplitr; · ipureintro; trivial
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]
    · iexists _; isplitr; swap; (· iexact H5)
      ipureintro
      intro p hp
      have hs := hinv p (by simpa using hp)
      rw [show readSlot (grid0.coords t) xs = slotOf p xs from
        eq_of_heq (ld_unit_congr xs (off1_eq_off2_pred t p hp) _ _ _), hs]
    iexists _; isplitr; swap; (· iexact H6)
    ipureintro
    intro h; exact absurd h hc

end Cert.KernelIdeal.Hand

end
-- ==== Proof.GateArrays.lean ====
/-
  What the relational proof data says of the arrays when the region ends is what the named data computes.

  An input array is never written back. The first output is written back at points 1 to 15, and at each of them the
  body has left in the buffer the gates of the block before; the second output is written back at the last point only,
  where the body has left that block's own gates. So whatever contents the arrays may hold after the write-backs below
  any point are exactly the named ones.
-/
import proofs.«114928_g52183852646652_cont_8to1_c_617_24_alg».proof.Proof.GateData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The schedule's facts, decided over the grid -/

/-- The token array is never written back. -/
theorem flush0_in0 : ∀ t : Fin cfg0.N, (cfg0.win 0).flush t = false := (by decide +kernel : ∀ t : Fin grid0.N, win0_0.flush t = false)

/-- The first output is not written back at the first point. -/
theorem pos_of_flush0_5 : ∀ t : Fin cfg0.N, (cfg0.win 5).flush t = true → 1 ≤ t.val :=
  (by decide +kernel : ∀ t : Fin grid0.N, win0_5.flush t = true → 1 ≤ t.val)

/-- At the last point the kernel's test "this is the last block" holds. -/
theorem cond1_of_last : ∀ t : Fin cfg0.N, t.val % 16 = 15 → k0_cond1 (grid0.coords t) = 1#1 :=
  (by decide +kernel : ∀ t : Fin grid0.N, t.val % 16 = 15 → k0_cond1 (grid0.coords t) = 1#1)

/-! ## What is written back is what the named data names -/

/-- At a point that writes window `w` back, whatever the body may have left in its buffer is the named contents:
    no input window has such a point; the first output's are points 1 to 15, where the relation names the gates of the
    block before; the second output's is the last point, where the kernel's test holds and the relation names that
    block's own gates. -/
theorem leaves_eq_after (c : Dev nD) : ∀ (w : Fin 7) (t : Fin cfg0.N) (X : (cfg0.win w).block.Idx → Elt F (cfg0.win w).elt),
    (cfg0.win w).flush t = true → (rdat m c).Leaves w t X → X = (datX m c).after w t
  | 0, t, _, hfl, _ => absurd ((flush0_in0 t).symm.trans hfl) Bool.false_ne_true
  | 1, t, _, hfl, _ => absurd ((flush0_in1 t).symm.trans hfl) Bool.false_ne_true
  | 2, t, _, hfl, _ => absurd ((flush0_in2 t).symm.trans hfl) Bool.false_ne_true
  | 3, t, _, hfl, _ => absurd ((flush0_in3 t).symm.trans hfl) Bool.false_ne_true
  | 4, t, _, hfl, _ => absurd ((flush0_in4 t).symm.trans hfl) Bool.false_ne_true
  | 5, t, X, hfl, ⟨Y, _, hYX⟩ => by
    have ht : 1 ≤ t.val := pos_of_flush0_5 t hfl
    dsimp only [rdat] at hYX
    dsimp only [datX]
    exact hYX (predPt t) (show t.val - 1 + 1 = t.val by omega)
  | 6, t, X, hfl, ⟨Y, _, hYX⟩ => by
    dsimp only [rdat] at hYX
    dsimp only [datX]
    exact hYX (cond1_of_last t ((flush0_6 t).mp hfl))
  | ⟨_ + 7, h⟩, _, _, _, _ => absurd h (Nat.not_lt.2 (Nat.le_add_left _ _))

/-- After the write-backs below point `n`, window `w`'s array holds what the named data computes. -/
theorem arrAt_of_ArrAt (c : Dev nD) (w : Fin cfg0.W) (n : ℕ)
    (G : Buf (Elt F) ((cfg0.win w).arr.view.loc (c : Thread nD τ))) (h : (rdat m c).ArrAt w n G) :
    G = (datX m c).arrAt w n := by
  induction n generalizing G with
  | zero => exact h
  | succ n ih =>
    by_cases hn : n < cfg0.N
    · -- One more point inside the grid: both sides step by that point's write-back, if it has one.
      have hR := (rdat m c).ArrAt_succ w ⟨n, hn⟩
      have hD := (datX m c).arrAt_succ w ⟨n, hn⟩
      dsimp only at hR hD
      rw [hR] at h
      rw [hD]
      by_cases hfl : (cfg0.win w).flush ⟨n, hn⟩ = true
      · rw [if_pos hfl] at h ⊢
        obtain ⟨G₀, X, hG₀, hX, rfl⟩ := h
        rw [ih G₀ hG₀, leaves_eq_after m c w ⟨n, hn⟩ X hfl hX]
      · rw [if_neg hfl] at h ⊢
        exact ih G h
    · -- Past the last point nothing is written any more.
      have hR : (rdat m c).ArrAt w (n + 1) = (rdat m c).ArrAt w n := by
        show (if h : n < cfg0.N then _ else (rdat m c).ArrAt w n) = _
        rw [dif_neg hn]
      have hD : (datX m c).arrAt w (n + 1) = (datX m c).arrAt w n := by
        show (if h : n < cfg0.N then _ else (datX m c).arrAt w n) = _
        rw [dif_neg hn]
      rw [hR] at h
      rw [hD]
      exact ih G h

end Cert.KernelIdeal.Hand

end
-- ==== Proof.GateLaunch.lean ====
/-
  The whole program's run: three host operations, the pipelined region, three host operations.

  Before the region the host reshapes the two bias vectors into rows and narrows the second weight matrix; the region
  is entered with every array at those contents and with a scratch holding whatever the machine left; its invariant
  says, from the second point on, that the slot the point before wrote holds that point's kept block. When the region
  ends the token array and the weights are as they were, the first output holds the gates of blocks 0 to 14 and the
  second output those of block 15; the host then splices the second into the last rows of the first. Every weakly fair
  execution ends there, nothing faulting, with the five arguments unchanged and the result at `finalOut`.
-/
import proofs.«114928_g52183852646652_cont_8to1_c_617_24_alg».proof.Proof.GateData
import proofs.«114928_g52183852646652_cont_8to1_c_617_24_alg».proof.Proof.GateArrays
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)
/-- The launch contents as a valuation. -/
abbrev Vl (c : Dev nD) : Valuation τ sig (Elt F) := fun b => m (c, b)
/-- The one pipeline's proof data. -/
abbrev rdats (_ : Fin 1) (c : Dev nD) : RDat τ (Elt F) Unit ℕ (UR sig nD τ) ℕ cfg0 c := rdat m c

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The three operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vl m) R

/-- The three operations after it, from the contents the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W1 m) R

/-! ## The contents after the region, buffer by buffer -/

theorem W1_out (c : Dev nD) : W1 m c (Proc.devRef .tc main_call0_v3_0) = outArr m c := by
  unfold W1; rw [Function.update_of_ne (StableHlo.devRef_ne_of_ne (by decide)), Function.update_self]

theorem W1_last (c : Dev nD) : W1 m c (Proc.devRef .tc main_call0_v3_1) = lastArr m c := by
  unfold W1; rw [Function.update_self]

theorem W1_other (c : Dev nD) (b : Ref sig .tc) (h0 : b ≠ main_call0_v3_0) (h1 : b ≠ main_call0_v3_1) :
    W1 m c (Proc.devRef .tc b) = V m c b := by
  unfold W1; rw [Function.update_of_ne (StableHlo.devRef_ne_of_ne h1), Function.update_of_ne (StableHlo.devRef_ne_of_ne h0)]

/-- The arrays as the region leaves them are the valuation `W1` at the arrays. -/
theorem arrs_eq_W1 (c : Dev nD) (w : Fin cfg0.W) :
    (datX m c).arrAt w cfg0.N = W1 m c (Proc.devRef .tc (Pipeline.arrRef spec0 w)) := by
  fin_cases w
  · exact ((datX m c).arrAt_in 0 rfl _).trans (W1_other m c main_arg0 (by decide) (by decide)).symm
  · exact ((datX m c).arrAt_in 1 rfl _).trans (W1_other m c main_arg1 (by decide) (by decide)).symm
  · exact ((datX m c).arrAt_in 2 rfl _).trans (W1_other m c main_call0_v0 (by decide) (by decide)).symm
  · exact ((datX m c).arrAt_in 3 rfl _).trans (W1_other m c main_call0_v2 (by decide) (by decide)).symm
  · exact ((datX m c).arrAt_in 4 rfl _).trans (W1_other m c main_call0_v1 (by decide) (by decide)).symm
  · exact (W1_out m c).symm
  · exact (W1_last m c).symm

/-- The arrays at their final contents and the buffers that bypassed the region are every unscoped buffer at `W1`. -/
theorem bufs_after_region (c : Dev nD) :
    iprop((rdat m c).arrays (fun w => (datX m c).arrAt w cfg0.N) ∗ Pipeline.unscopedRest spec0 c (V m c))
      ⊢ (StableHlo.held (c : Thread nD τ) (Pipeline.ucRefs τ sig) (W1 m c) : sProp 𝕄) := by
  rw [← Pipeline.unscopedBufs_held c (W1 m c),
    Pipeline.unscopedBufs_split cfgs 0 launch0.win.arr_unscoped launch0.win.arr_inj c (fun b => W1 m c (Proc.devRef .tc b)),
    Pipeline.RDat.arrays_eq (pcfgs (F := F)) adm (rdats m) 0 c launch0.arr_whole ((rdat m c).share_full fun _ => rfl)]
  refine sep_mono (Entails.of_eq (bigSep_congr fun w _ => by rw [arrs_eq_W1 m c w])) (Entails.of_eq ?_)
  unfold Pipeline.unscopedRest
  refine bigSep_congr fun b hb => ?_
  have hb' := (Finset.mem_sdiff.mp hb).2
  beta_reduce
  rw [W1_other m c b (fun h => hb' (h ▸ Finset.mem_image.mpr ⟨5, Finset.mem_univ _, rfl⟩))
    (fun h => hb' (h ▸ Finset.mem_image.mpr ⟨6, Finset.mem_univ _, rfl⟩))]

/-! ## The region -/

-- `iapply` of a Launch.lean lemma stated over `cfgs p` at the pinned configuration unifies only when unification may
-- unfold plain definitions in a metavariable's type
set_option backward.isDefEq.respectTransparency.types false in
/-- THE REGION: entered from what the first host stretch left — the seven windows' arrays into the pipeline, the rest
    bypassing —, its invariant made of the scratch alone, left with the arrays at their final contents. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem := fun k => k.elim
  ho := Pipeline.OwnSemFacts.none _
  hbody c := body_obligation m c
  hwaits := Pipeline.RDat.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from
      (Pipeline.unscopedBufs_held c _).symm]
    have hsplit := Pipeline.RDat.arrays_of_unscopedBufs (pcfgs (F := F)) adm (rdats m) (p := 0) launch0.win launch0.arr_whole c
      ((rdat m c).share_full fun _ => rfl) (V m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [scopedRest0_eq]
    dsimp only [rdats, rdat]
    simp only [owns_whole]
    iintro ⟨-, -, ⟨%f, Hs⟩⟩
    iexists f
    isplitl [Hs]
    · iexact Hs
    ipureintro
    intro p hp
    exact absurd hp (Nat.succ_ne_zero _)
  hout c := by
    rw [scopedRest0_eq, Pipeline.ownSems0_none]
    dsimp only [rdats, rdat]
    simp only [owns_whole]
    iintro ⟨%xs, Hs, -⟩
    isplitr; · iempintro
    isplitr; · iempintro
    iexists xs
    iexact Hs
  hexit c := by
    have harr : ((rdat m c).arraysAt cfg0.N : sProp 𝕄) ⊢ (rdat m c).arrays (fun w => (datX m c).arrAt w cfg0.N) := by
      have h1 : ∀ w : Fin cfg0.W,
          (iprop(∃ G, ⌜(rdat m c).ArrAt w cfg0.N G⌝ ∗ ((cfg0.win w).arr.view.loc (c : Thread nD τ) ↦[(cfg0.win w).arr.view.set]{(rdat m c).share w} G)) : sProp 𝕄)
            ⊢ ((cfg0.win w).arr.view.loc (c : Thread nD τ) ↦[(cfg0.win w).arr.view.set]{(rdat m c).share w} (datX m c).arrAt w cfg0.N) := fun w => by
        iintro ⟨%G, %hG, H⟩
        obtain rfl := arrAt_of_ArrAt m c w _ G hG
        iexact H
      unfold RDat.arraysAt RDat.arrays
      exact bigSep_mono fun w _ => h1 w
    iintro ⟨Ha, HO, -, HZ⟩
    ihave Ha' := harr $$ Ha
    ihave Hh := (bufs_after_region m c) $$ [Ha' HZ]
    · isplitl [Ha'] <;> iassumption
    imodintro
    isplitl [Hh]; · iexact Hh
    unfold Pipeline.RDat.owesAt Pipeline.owesWithin
    icases HO with ⟨%W, -, HO⟩; iexists W; iexact HO

/-! ## The run -/

/-- @main as its three segments. -/
abbrev segs : List (Pipeline.RDat.Seg (pcfgs (F := F)) adm (rdats m) () defs₀ 𝒱₀ L lv) :=
  [.host (seg0 m), .region (reg0 m), .host (seg1 m)]

/-- The launch element: the pipeline library's at the staging cells. -/
def u₀ : UR sig nD τ := initOf (Pipeline.cells cfgs cellOf_inj) (Pipeline.launchToks cfgs cellOf_inj)

/-- No operation before the region writes an argument, -/
theorem not_written0 (b : Ref sig .tc) (hb : b ≠ main_call0_v0 ∧ b ≠ main_call0_v1 ∧ b ≠ main_call0_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- nor any after it. -/
theorem not_written1 (b : Ref sig .tc) (hb : b ≠ main_call0_c ∧ b ≠ main_call0_c_0 ∧ b ≠ main_v0) :
    ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.nullary_writes, StableHlo.binaryIndexed_writes, Finset.mem_singleton] <;>
    exact StableHlo.devRef_ne_of_ne ‹_›

/-- An argument array ends as launched. -/
theorem arg_kept (c : Dev nD) (b : Ref sig .tc)
    (hb0 : b ≠ main_call0_v0 ∧ b ≠ main_call0_v1 ∧ b ≠ main_call0_v2) (hb1 : b ≠ main_call0_c ∧ b ≠ main_call0_c_0 ∧ b ≠ main_v0)
    (h0 : b ≠ main_call0_v3_0) (h1 : b ≠ main_call0_v3_1) :
    StableHlo.after hostOps1 (W1 m c) (Proc.devRef .tc b) = m ((c : Thread nD τ).loc b) :=
  (StableHlo.after_of_forall_not_mem (b := Proc.devRef .tc b) hostOps1 (W1 m c) (not_written1 b hb1)).trans
    ((W1_other m c b h0 h1).trans
      (StableHlo.after_of_forall_not_mem (b := Proc.devRef .tc b) hostOps0 (Vl m c) (not_written0 b hb0)))

/-! ## Reading the end -/

/-- One buffer out of a held set. -/
theorem held_get (c : Dev nD) (S : Finset (DevRef τ sig)) (Wv : Valuation τ sig (Elt F)) (b : DevRef τ sig) (hb : b ∈ S) :
    (StableHlo.held (c : Thread nD τ) S Wv : sProp 𝕄)
      ⊢ iprop(((((c : Thread nD τ).1, b) ↦{fullShare} Wv b) : sProp 𝕄) ∗ StableHlo.held (c : Thread nD τ) (S \ {b}) Wv) := by
  rw [StableHlo.held_sub_split (c : Thread nD τ) (Finset.singleton_subset_iff.mpr hb) Wv]
  unfold StableHlo.held; rw [BI.bigSep_singleton]

/-- What a final state holds: the result at `finalOut`, the five arguments as launched. -/
abbrev QY (c : Dev nD) (s : MemSt nD τ sig (Elt F)) : Prop :=
  s.mem ((c : Thread nD τ).loc main_v0) = finalOut m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem final_read (c : Dev nD) (s' : Phys nD τ sig (Elt F)) :
    iprop((StableHlo.held (c : Thread nD τ) (Pipeline.ucRefs τ sig) (StableHlo.after hostOps1 (W1 m c)) : sProp 𝕄) ∗ SI s')
      ⊢ |={Set.univ}=> iprop(⌜QY m c s'.mem⌝ ∗ SI s') := by
  iintro ⟨Hh, HSI⟩
  ihave H := (held_get c _ _ (Proc.devRef .tc main_v0) (by decide)) $$ Hh
  icases H with ⟨Hv, Hh⟩
  icombine HSI Hv gives %hv
  ihave H := (held_get c _ _ (Proc.devRef .tc main_arg0) (by decide)) $$ Hh
  icases H with ⟨H0, Hh⟩
  icombine HSI H0 gives %h0
  ihave H := (held_get c _ _ (Proc.devRef .tc main_arg1) (by decide)) $$ Hh
  icases H with ⟨H1, Hh⟩
  icombine HSI H1 gives %h1
  ihave H := (held_get c _ _ (Proc.devRef .tc main_arg2) (by decide)) $$ Hh
  icases H with ⟨H2, Hh⟩
  icombine HSI H2 gives %h2
  ihave H := (held_get c _ _ (Proc.devRef .tc main_arg3) (by decide)) $$ Hh
  icases H with ⟨H3, Hh⟩
  icombine HSI H3 gives %h3
  ihave H := (held_get c _ _ (Proc.devRef .tc main_arg4) (by decide)) $$ Hh
  icases H with ⟨H4, Hh⟩
  icombine HSI H4 gives %h4
  imodintro
  isplitr; swap; (· iexact HSI)
  ipureintro
  exact ⟨Buf.eq_of_forall_mem_univ hv,
    (Buf.eq_of_forall_mem_univ h0).trans (arg_kept m c main_arg0 (by decide) (by decide) (by decide) (by decide)),
    (Buf.eq_of_forall_mem_univ h1).trans (arg_kept m c main_arg1 (by decide) (by decide) (by decide) (by decide)),
    (Buf.eq_of_forall_mem_univ h2).trans (arg_kept m c main_arg2 (by decide) (by decide) (by decide) (by decide)),
    (Buf.eq_of_forall_mem_univ h3).trans (arg_kept m c main_arg3 (by decide) (by decide) (by decide) (by decide)),
    (Buf.eq_of_forall_mem_univ h4).trans (arg_kept m c main_arg4 (by decide) (by decide) (by decide) (by decide))⟩

-- the launch theorem's implicit arguments are found by unifying its conclusion with this one, which takes unfolding
-- plain definitions in a metavariable's type
set_option backward.isDefEq.respectTransparency.types false in
/-- At the compiled mesh, for any float values, from any memory with zero counters: every weakly fair execution of
    @main terminates, nothing faulting, and every final state has the result at `finalOut` and the five arguments
    unchanged. -/
theorem run_main : θ_run defs (onTc (τ := τ) (main (F := F))) ⟨m, fun _ => 0, ρ⟩ (fun r => ∀ c : Dev nD, QY m c r.2) :=
  Pipeline.RDat.θ_run_regions_kit (pcfgs (F := F)) adm (rdats m) () cellOf_inj EP defs₀ 𝒱₀ L lv m ρ main (segs m)
    (fun c Q => by rw [main_chain, Pipeline.RDat.Seg.run_eq_chain]; exact .rfl)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (StableHlo.after hostOps1 (W1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from
        Pipeline.unscopedBufs_held c (Vl m c)]
      iintro ⟨⟨Hh, -, HO, -, -, -⟩, -⟩
      imodintro
      isplitl [Hh]; · iexact Hh
      iexists ∅; iexact HO)
    (QY := QY m)
    (hfin := fun c s' => final_read m c s')
    (hQ := fun _ h => h)

end Cert.KernelIdeal.Hand

end
-- ==== Proof.BitsGateBody.lean ====
/-
  One grid point of the gating kernel, run once at symbolic operands.

  The body multiplies its block of 512 token rows by the first weight matrix, reads the OTHER parity's slot of a
  two-slot scratch (what the previous grid point kept there), turns that slot into gates (second matrix product,
  bias, exponentials normalised by their row sum) and stores them whole into the first output's buffer; then it
  adds the first bias, applies the ReLU and keeps the block in its own parity's slot. At the last grid point it
  also turns its own block into gates and stores them whole into the second output's buffer; elsewhere that buffer
  is left as found. Every input buffer is handed back as it was.
-/
import proofs.«114928_g52183852646652_cont_8to1_c_617_24_alg».proof.Proof.Gen.Kernel.Launch
import proofs.«114928_g52183852646652_cont_8to1_c_617_24_alg».proof.Proof.Gen.Kernel.Skeleton
import proofs.«114928_g52183852646652_cont_8to1_c_617_24_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- One store through a rectangle leaves the payload on the rectangle and the earlier contents off it. -/
theorem read_writes_one {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem v f y _ (by
        intro p hp; rw [List.mem_singleton] at hp; subst hp; exact hy), Rect.overlay_of_not_mem _ _ _ hy]

theorem zero2 : (![0, 0] : Fin 2 → Nat) = fun _ => 0 := by funext a; fin_cases a <;> rfl

/-- The scratch slot a grid point reads: the other parity's. -/
abbrev readSlot (i : grid0.Coords) (xs : Vec F S2x512x1024 .bf16) : Vec F S1x512x1024 .bf16 :=
  View.ld xs (Rect.unit (s := S2x512x1024) (k0_off1 i) S1x512x1024.size (Facts₀.k0_off1_inb i))

/-- The scratch after a grid point has kept `w` in its own parity's slot. -/
abbrev writeSlot (i : grid0.Coords) (xs : Vec F S2x512x1024 .bf16) (w : Vec F S1x512x1024 .bf16) : Vec F S2x512x1024 .bf16 :=
  (Rect.unit (s := S2x512x1024) (k0_off2 i) S1x512x1024.size (Facts₀.k0_off2_inb i)).overlay xs w

set_option maxHeartbeats 1000000 in
/-- Every grid point but the last: the first output's buffer ends at the gates of the slot read, the scratch with
    this block's ReLU layer kept in its own slot, the second output's buffer and the inputs as found. -/
theorem kernelRun_mid (c : Dev nD) (i : grid0.Coords)
    (arg1 : Memref sig .tc .vmem S512x4096 .f32) (harg1 : arg1.IsWhole) (arg2 : Memref sig .tc .vmem S4096x1024 .f32) (harg2 : arg2.IsWhole)
    (arg3 : Memref sig .tc .vmem S1x1024 .f32) (harg3 : arg3.IsWhole) (arg4 : Memref sig .tc .vmem S1024x64 .bf16) (harg4 : arg4.IsWhole)
    (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg8 : Memref sig .tc .vmem S2x512x1024 .bf16) (harg8 : arg8.IsWhole)
    (hc : ¬ (k0_cond1 i = 1#1))
    (x0 : Vec F S512x4096 .f32) (x1 : Vec F S4096x1024 .f32) (x2 : Vec F S1x1024 .f32) (x3 : Vec F S1024x64 .bf16) (x4 : Vec F S1x64 .f32)
    (d6 : Vec F S512x64 .f32) (d7 : Vec F S512x64 .f32) (xs : Vec F S2x512x1024 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay5 (readSlot i xs) x3 x4) ∗ owns (c : Thread nD τ) arg7 fullShare d7
            ∗ owns (c : Thread nD τ) arg8 fullShare (writeSlot i xs (k0_pay2 (k0_pay4 x0 x1) x2))) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := exact hc)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H6]
  · iexists _; isplitr; swap; (· iexact H6)
    ipureintro
    rw [View.read_writes_eq_canon _ _ _ (fun y => ⟨_, List.mem_singleton_self _, View.mem_set_unit_zero zero2 Facts₀.inb_S512x64_S512x64_0_0 y⟩),
      View.canon_unit_zero zero2]
    simp only [View.readAt_eq_ld, harg8.read_unread, harg4.read_unread, harg5.read_unread,
      View.ld_unit_zero (S := S1024x64) zero2, View.ld_unit_zero (S := S1x64) zero2]
  isplitl [H7]; · iexists _; isplitr; · ipureintro; exact hf7
                  iexact H7
  iexists _; isplitr; swap; (· iexact HS)
  ipureintro
  rw [read_writes_one, harg8.read_unread]
  sl_unfold_words
  simp only [View.readAt_eq_ld, harg1.read_unread, harg2.read_unread, harg3.read_unread,
    View.ld_unit_zero (S := S512x4096) zero2, View.ld_unit_zero (S := S4096x1024) zero2, View.ld_unit_zero (S := S1x1024) zero2]
  rfl

set_option maxHeartbeats 1000000 in
/-- The last grid point: as every other, and the second output's buffer ends at the gates of this block itself. -/
theorem kernelRun_last (c : Dev nD) (i : grid0.Coords)
    (arg1 : Memref sig .tc .vmem S512x4096 .f32) (harg1 : arg1.IsWhole) (arg2 : Memref sig .tc .vmem S4096x1024 .f32) (harg2 : arg2.IsWhole)
    (arg3 : Memref sig .tc .vmem S1x1024 .f32) (harg3 : arg3.IsWhole) (arg4 : Memref sig .tc .vmem S1024x64 .bf16) (harg4 : arg4.IsWhole)
    (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg8 : Memref sig .tc .vmem S2x512x1024 .bf16) (harg8 : arg8.IsWhole)
    (hc : k0_cond1 i = 1#1)
    (x0 : Vec F S512x4096 .f32) (x1 : Vec F S4096x1024 .f32) (x2 : Vec F S1x1024 .f32) (x3 : Vec F S1024x64 .bf16) (x4 : Vec F S1x64 .f32)
    (d6 : Vec F S512x64 .f32) (d7 : Vec F S512x64 .f32) (xs : Vec F S2x512x1024 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay5 (readSlot i xs) x3 x4)
            ∗ owns (c : Thread nD τ) arg7 fullShare (k0_pay3 (k0_pay4 x0 x1) x2 x3 x4)
            ∗ owns (c : Thread nD τ) arg8 fullShare (writeSlot i xs (k0_pay2 (k0_pay4 x0 x1) x2))) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := exact hc)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H6]
  · iexists _; isplitr; swap; (· iexact H6)
    ipureintro
    rw [View.read_writes_eq_canon _ _ _ (fun y => ⟨_, List.mem_singleton_self _, View.mem_set_unit_zero zero2 Facts₀.inb_S512x64_S512x64_0_0 y⟩),
      View.canon_unit_zero zero2]
    simp only [View.readAt_eq_ld, harg8.read_unread, harg4.read_unread, harg5.read_unread,
      View.ld_unit_zero (S := S1024x64) zero2, View.ld_unit_zero (S := S1x64) zero2]
  isplitl [H7]
  · iexists _; isplitr; swap; (· iexact H7)
    ipureintro
    rw [View.read_writes_eq_canon _ _ _ (fun y => ⟨_, List.mem_singleton_self _, View.mem_set_unit_zero zero2 Facts₀.inb_S512x64_S512x64_0_0 y⟩),
      View.canon_unit_zero zero2]
    sl_unfold_words
    simp only [View.readAt_eq_ld, harg1.read_unread, harg2.read_unread, harg3.read_unread, harg4.read_unread, harg5.read_unread,
      View.ld_unit_zero (S := S512x4096) zero2, View.ld_unit_zero (S := S4096x1024) zero2, View.ld_unit_zero (S := S1x1024) zero2,
      View.ld_unit_zero (S := S1024x64) zero2, View.ld_unit_zero (S := S1x64) zero2]
  iexists _; isplitr; swap; (· iexact HS)
  ipureintro
  rw [read_writes_one, harg8.read_unread]
  sl_unfold_words
  simp only [View.readAt_eq_ld, harg1.read_unread, harg2.read_unread, harg3.read_unread,
    View.ld_unit_zero (S := S512x4096) zero2, View.ld_unit_zero (S := S4096x1024) zero2, View.ld_unit_zero (S := S1x1024) zero2]
  rfl

/-- Reading back the slot a grid point has just written gives what it wrote. -/
theorem ld_overlay_self {S : Shape} {Val : EltTy → Type} {e : EltTy} (r : Rect S) (X : S.Idx → Val e) (w : r.shape.Idx → Val e) :
    View.ld (r.overlay X w) r = w := by
  funext x
  show r.overlay X w (r.idx x) = w x
  rw [show r.idx x = r.emb x from rfl, Rect.overlay_emb]

/-- A load through a rectangle reads the same through an equal offset, whatever the in-bounds evidence. -/
theorem ld_unit_congr {S : Shape} {Val : EltTy → Type} {e : EltTy} (X : S.Idx → Val e) {off off' : Fin S.rank → Nat} (h : off = off') (size : Fin S.rank → Nat)
    (inb : ∀ a, off a + size a ≤ S.size a) (inb' : ∀ a, off' a + size a ≤ S.size a) :
    HEq (View.ld X (Rect.unit off size inb)) (View.ld X (Rect.unit off' size inb')) := by
  subst h; rfl

end Cert.Kernel.Hand

end
-- ==== Proof.BitsGateBlocks.lean ====
/-
  Names for what the gating kernel's pipeline moves, at the buffers' literal types.

  The region finds the token array, the first weight matrix, and three arrays the host made just before it (the two
  biases as rows, the second weight matrix narrowed). Point `t` of the grid reads the token block `t`; it keeps
  that block's ReLU layer (`keptBlk t`) for the next point, which turns it into block `t`'s gates (`outBlk t`) and
  writes them back as block `t` of the first output; the last point also makes its own block's gates (`lastBlk`),
  the whole of the second output. After the region the host splices the second output into the last 512 rows of the
  first: that is the program's result (`finalOut`).
-/
import proofs.«114928_g52183852646652_cont_8to1_c_617_24_alg».proof.Proof.Gen.Kernel.Launch
import proofs.«114928_g52183852646652_cont_8to1_c_617_24_alg».proof.Proof.Gen.Kernel.Skeleton
import proofs.«114928_g52183852646652_cont_8to1_c_617_24_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The buffers' contents when the region is entered: the launch contents after the three host operations before it. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The token block of point `t`; the two weight matrices and the two bias rows (whole arrays, one block each). -/
abbrev xBlk (c : Dev nD) (t : Fin cfg0.N) : Vec F S512x4096 .f32 := iblk m c 0 t
abbrev w1Blk (c : Dev nD) : Vec F S4096x1024 .f32 := iblk m c 1 t0_0
abbrev b1Blk (c : Dev nD) : Vec F S1x1024 .f32 := iblk m c 2 t0_0
abbrev w2Blk (c : Dev nD) : Vec F S1024x64 .bf16 := iblk m c 3 t0_0
abbrev b2Blk (c : Dev nD) : Vec F S1x64 .f32 := iblk m c 4 t0_0

/-- What point `t` keeps in its scratch slot: its block's ReLU layer. -/
abbrev keptBlk (c : Dev nD) (t : Fin cfg0.N) : Vec F S1x512x1024 .bf16 := k0_pay2 (k0_pay4 (xBlk m c t) (w1Blk m c)) (b1Blk m c)
/-- The gates of block `p`, computed one point later from the kept slot. -/
abbrev outBlk (c : Dev nD) (p : Fin cfg0.N) : Vec F S512x64 .f32 := k0_pay5 (keptBlk m c p) (w2Blk m c) (b2Blk m c)
/-- The gates of block `t` computed at point `t` itself (the last point's). -/
abbrev lastBlk (c : Dev nD) (t : Fin cfg0.N) : Vec F S512x64 .f32 := k0_pay3 (k0_pay4 (xBlk m c t) (w1Blk m c)) (b1Blk m c) (w2Blk m c) (b2Blk m c)

/-- The grid has sixteen points. -/
theorem N16 : cfg0.N = 16 := N_0

/-- Row `q` of token block `p`, as a row of the whole token array. -/
def rowOf (p : Fin cfg0.N) (q : Fin 512) : Fin 8192 := ⟨512 * p.val + q.val, by have h : p.val < 16 := Nat.lt_of_lt_of_eq p.isLt N16; omega⟩

/-- The point before `t` (the first point's own, where there is none: its contents are never written back). -/
abbrev predPt (t : Fin cfg0.N) : Fin cfg0.N := ⟨t.val - 1, Nat.lt_of_le_of_lt (Nat.sub_le _ _) t.isLt⟩

/-- Every window's buffer after the body at each point, named: the inputs as fetched, the first output at the gates of
    the block before, the second output at the point's own block's gates. Only what the pipeline writes back of it is
    ever read: the first output's at points 1 to 15, the second's at the last point. -/
def datX (c : Dev nD) : Dat τ (Elt F) Unit ℕ (UR sig nD τ) ℕ cfg0 c where
  A w := V m c (Pipeline.arrRef spec0 w)
  after w t := match w with
    | ⟨0, _⟩ => xBlk m c t
    | ⟨1, _⟩ => w1Blk m c
    | ⟨2, _⟩ => b1Blk m c
    | ⟨3, _⟩ => w2Blk m c
    | ⟨4, _⟩ => b2Blk m c
    | ⟨5, _⟩ => outBlk m c (predPt t)
    | ⟨6, _⟩ => lastBlk m c t
    | ⟨_ + 7, h⟩ => absurd h (Nat.not_lt.2 (Nat.le_add_left _ _))
  Φ _ := iprop(emp)
  q _ := fullShare
  owed _ := 0

/-- The two outputs' arrays when the region ends. -/
def outArr (c : Dev nD) : Buf (Elt F) ((c : Thread nD τ).loc main_call0_v3_0) := (datX m c).arrAt 5 cfg0.N
def lastArr (c : Dev nD) : Buf (Elt F) ((c : Thread nD τ).loc main_call0_v3_1) := (datX m c).arrAt 6 cfg0.N

/-- The buffers' contents when the region ends: as at its entry, the two outputs at what the pipeline wrote. -/
def W1 (c : Dev nD) : Valuation τ sig (Elt F) :=
  Function.update (Function.update (V0 m c) (Proc.devRef .tc main_call0_v3_0) (outArr m c)) (Proc.devRef .tc main_call0_v3_1) (lastArr m c)

/-- The program's result: the second output spliced into the first by the three host operations after the region. -/
def finalOut (c : Dev nD) : Buf (Elt F) ((c : Thread nD τ).loc main_v0) := StableHlo.after hostOps1 (W1 m c) (Proc.devRef .tc main_v0)

end Cert.Kernel.Hand

end
-- ==== Proof.BitsGateData.lean ====
/-
  The pipeline's proof data for the gating kernel, and the body's obligation against it.

  Between grid points the kernel keeps, in a two-slot scratch, the ReLU layer of the block it has just multiplied:
  before point `t` the slot that point `t - 1` wrote holds that point's block (nothing is known before the first
  point: the scratch then holds whatever the machine left there). Point `t` turns the slot it reads into the gates of
  block `t - 1` and leaves them in the first output's buffer; at the first point the slot is not yet written, so
  nothing is said of what the buffer then holds — that point does not write its block back. The last point leaves its
  own block's gates in the second output's buffer. The weight and bias buffers are fetched once and left as found.
-/
import proofs.«114928_g52183852646652_cont_8to1_c_617_24_alg».proof.Proof.BitsGateBody
import proofs.«114928_g52183852646652_cont_8to1_c_617_24_alg».proof.Proof.BitsGateBlocks
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The slot of the scratch `xs` that point `p` writes. -/
abbrev slotOf (p : Fin cfg0.N) (xs : Vec F S2x512x1024 .bf16) : Vec F S1x512x1024 .bf16 :=
  View.ld xs (Rect.unit (s := S2x512x1024) (k0_off2 (grid0.coords p)) S1x512x1024.size (Facts₀.k0_off2_inb (grid0.coords p)))

/-- The proof data on core `c`. -/
def rdat (c : Dev nD) : RDat τ (Elt F) Unit ℕ (UR sig nD τ) ℕ cfg0 c where
  A w := V m c (Pipeline.arrRef spec0 w)
  after w t Y X := match w with
    | ⟨0, _⟩ => True
    | ⟨1, _⟩ => X = Y
    | ⟨2, _⟩ => X = Y
    | ⟨3, _⟩ => X = Y
    | ⟨4, _⟩ => X = Y
    | ⟨5, _⟩ => ∀ p : Fin cfg0.N, p.val + 1 = t.val → X = outBlk m c p
    | ⟨6, _⟩ => k0_cond1 (grid0.coords t) = 1#1 → X = lastBlk m c t
    | ⟨_ + 7, h⟩ => absurd h (Nat.not_lt.2 (Nat.le_add_left _ _))
  Φ t := iprop(∃ xs : Vec F S2x512x1024 .bf16, owns (c : Thread nD τ) (Memref.whole cc0_scratch0) fullShare xs
      ∗ ⌜∀ p : Fin cfg0.N, p.val + 1 = t.val → slotOf p xs = keptBlk m c p⌝)
  q _ := fullShare
  owed _ := 0

/-! ## The schedule's facts, decided over the grid -/

theorem flush0_in1 : ∀ t : Fin cfg0.N, (cfg0.win 1).flush t = false := (by decide +kernel : ∀ t : Fin grid0.N, win0_1.flush t = false)
theorem flush0_in2 : ∀ t : Fin cfg0.N, (cfg0.win 2).flush t = false := (by decide +kernel : ∀ t : Fin grid0.N, win0_2.flush t = false)
theorem flush0_in3 : ∀ t : Fin cfg0.N, (cfg0.win 3).flush t = false := (by decide +kernel : ∀ t : Fin grid0.N, win0_3.flush t = false)
theorem flush0_in4 : ∀ t : Fin cfg0.N, (cfg0.win 4).flush t = false := (by decide +kernel : ∀ t : Fin grid0.N, win0_4.flush t = false)

/-- The slot a point reads is the slot the point before it wrote. -/
theorem off1_eq_off2_pred : ∀ t p : Fin grid0.N, p.val + 1 = t.val → k0_off1 (grid0.coords t) = k0_off2 (grid0.coords p) := by decide +kernel

/-! ## What the body finds in the input buffers -/

/-- A window fetched at the first point only, never written back, whose buffer the body leaves as found, holds at
    every point what that one fetch brought. -/
theorem finds_held (c : Dev nD) (w : Fin cfg0.W) (hfl : ∀ t, (cfg0.win w).flush t = false)
    (hfe : ∀ t : Fin cfg0.N, (cfg0.win w).fetch t = true ↔ t.val % 16 = 0)
    (hafter : ∀ t Y X, (rdat m c).after w t Y X → X = Y) :
    ∀ (n : ℕ) (h : n < cfg0.N) (X : (cfg0.win w).block.Idx → Elt F (cfg0.win w).elt),
      (rdat m c).Finds w ⟨n, h⟩ X → ∃ d, X = (rdat m c).fetched w t0_0 d := by
  intro n
  induction n with
  | zero =>
    intro h X hX
    rw [RDat.finds_of_fetch _ ((hfe ⟨0, h⟩).mpr rfl)] at hX
    exact hX
  | succ n ih =>
    intro h X hX
    have hN : n + 1 < 16 := Nat.lt_of_lt_of_eq h N16
    have hnf : (cfg0.win w).fetch ⟨n + 1, h⟩ = false := by
      cases hq : (cfg0.win w).fetch ⟨n + 1, h⟩ with
      | false => rfl
      | true => have := (hfe ⟨n + 1, h⟩).mp hq; simp only at this; omega
    rw [RDat.finds_of_pos _ hnf (by simp)] at hX
    rcases hX with hX | ⟨Y, hY, hYX⟩
    · rw [hfl] at hX; exact absurd hX Bool.false_ne_true
    · have e := hafter _ Y X hYX
      subst e
      exact ih (by omega) _ (by simpa using hY)

/-! ## The body obligation -/

theorem finds0 (c : Dev nD) (t : Fin cfg0.N) (X : (cfg0.win 0).block.Idx → Elt F (cfg0.win 0).elt)
    (h : (rdat m c).Finds 0 t X) : X = xBlk m c t := by
  rw [RDat.finds_of_fetch _ (fetch0_0 t)] at h
  obtain ⟨d, rfl⟩ := h
  rfl

theorem finds1 (c : Dev nD) (t : Fin cfg0.N) (X : (cfg0.win 1).block.Idx → Elt F (cfg0.win 1).elt)
    (h : (rdat m c).Finds 1 t X) : X = w1Blk m c := by
  obtain ⟨d, rfl⟩ := finds_held m c 1 flush0_in1 fetch0_1 (fun _ _ _ h => h) t.val t.isLt X h
  rfl

theorem finds2 (c : Dev nD) (t : Fin cfg0.N) (X : (cfg0.win 2).block.Idx → Elt F (cfg0.win 2).elt)
    (h : (rdat m c).Finds 2 t X) : X = b1Blk m c := by
  obtain ⟨d, rfl⟩ := finds_held m c 2 flush0_in2 fetch0_2 (fun _ _ _ h => h) t.val t.isLt X h
  rfl

theorem finds3 (c : Dev nD) (t : Fin cfg0.N) (X : (cfg0.win 3).block.Idx → Elt F (cfg0.win 3).elt)
    (h : (rdat m c).Finds 3 t X) : X = w2Blk m c := by
  obtain ⟨d, rfl⟩ := finds_held m c 3 flush0_in3 fetch0_3 (fun _ _ _ h => h) t.val t.isLt X h
  rfl

theorem finds4 (c : Dev nD) (t : Fin cfg0.N) (X : (cfg0.win 4).block.Idx → Elt F (cfg0.win 4).elt)
    (h : (rdat m c).Finds 4 t X) : X = b2Blk m c := by
  obtain ⟨d, rfl⟩ := finds_held m c 4 flush0_in4 fetch0_4 (fun _ _ _ h => h) t.val t.isLt X h
  rfl

set_option maxHeartbeats 1000000 in
/-- At every point the body runs from the invariant and the buffers as found to the next point's invariant and every
    buffer in its window's relation to what was found. -/
theorem body_obligation (c : Dev nD) : (rdat m c).BodyObligation (defs₀ (F := F)) Variants.none () Set.univ := by
  intro t Y hY
  have e0 := finds0 m c t _ (hY 0)
  have e1 := finds1 m c t _ (hY 1)
  have e2 := finds2 m c t _ (hY 2)
  have e3 := finds3 m c t _ (hY 3)
  have e4 := finds4 m c t _ (hY 4)
  rw [bigSep_W0, bigSep_W0]
  rw [e0, e1, e2, e3, e4]
  dsimp only [rdat]
  unfold RDat.owesAt Pipeline.owesWithin
  show _ ⊢ wp frame (wpE (defs₀ (F := F)) Variants.none c none) Set.univ (bodyAt0 t) _
  iintro ⟨⟨%xs, Hs, %hinv⟩, ⟨%W, %hW, HO⟩, H0, H1, H2, H3, H4, H5, H6⟩
  by_cases hc : k0_cond1 (grid0.coords t) = 1#1
  · iapply (kernelRun_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) hc (xBlk m c t) (w1Blk m c) (b1Blk m c) (w2Blk m c) (b2Blk m c) (Y 5) (Y 6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs]
    · iexists _; isplitl [Hs]; · iexact Hs
      ipureintro
      intro p hp
      have hpt : p = t := Fin.ext (by simpa using hp)
      subst hpt
      exact ld_overlay_self _ _ _
    isplitl [HO]
    · iexists W; isplitr; · ipureintro; exact fun _ _ => Or.inl trivial
      iexact HO
    isplitl [H0]; · iexists _; isplitr; · ipureintro; trivial
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]
    · iexists _; isplitr; swap; (· iexact H5)
      ipureintro
      intro p hp
      have hs := hinv p (by simpa using hp)
      rw [show readSlot (grid0.coords t) xs = slotOf p xs from
        eq_of_heq (ld_unit_congr xs (off1_eq_off2_pred t p hp) _ _ _), hs]
    iexists _; isplitr; swap; (· iexact H6)
    ipureintro
    intro _; rfl
  · iapply (kernelRun_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) hc (xBlk m c t) (w1Blk m c) (b1Blk m c) (w2Blk m c) (b2Blk m c) (Y 5) (Y 6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs]
    · iexists _; isplitl [Hs]; · iexact Hs
      ipureintro
      intro p hp
      have hpt : p = t := Fin.ext (by simpa using hp)
      subst hpt
      exact ld_overlay_self _ _ _
    isplitl [HO]
    · iexists W; isplitr; · ipureintro; exact fun _ _ => Or.inl trivial
      iexact HO
    isplitl [H0]; · iexists _; isplitr; · ipureintro; trivial
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]
    · iexists _; isplitr; swap; (· iexact H5)
      ipureintro
      intro p hp
      have hs := hinv p (by simpa using hp)
      rw [show readSlot (grid0.coords t) xs = slotOf p xs from
        eq_of_heq (ld_unit_congr xs (off1_eq_off2_pred t p hp) _ _ _), hs]
    iexists _; isplitr; swap; (· iexact H6)
    ipureintro
    intro h; exact absurd h hc

end Cert.Kernel.Hand

end
-- ==== Proof.BitsGateArrays.lean ====
/-
  What the relational proof data says of the arrays when the region ends is what the named data computes.

  An input array is never written back. The first output is written back at points 1 to 15, and at each of them the
  body has left in the buffer the gates of the block before; the second output is written back at the last point only,
  where the body has left that block's own gates. So whatever contents the arrays may hold after the write-backs below
  any point are exactly the named ones.
-/
import proofs.«114928_g52183852646652_cont_8to1_c_617_24_alg».proof.Proof.BitsGateData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The schedule's facts, decided over the grid -/

/-- The token array is never written back. -/
theorem flush0_in0 : ∀ t : Fin cfg0.N, (cfg0.win 0).flush t = false := (by decide +kernel : ∀ t : Fin grid0.N, win0_0.flush t = false)

/-- The first output is not written back at the first point. -/
theorem pos_of_flush0_5 : ∀ t : Fin cfg0.N, (cfg0.win 5).flush t = true → 1 ≤ t.val :=
  (by decide +kernel : ∀ t : Fin grid0.N, win0_5.flush t = true → 1 ≤ t.val)

/-- At the last point the kernel's test "this is the last block" holds. -/
theorem cond1_of_last : ∀ t : Fin cfg0.N, t.val % 16 = 15 → k0_cond1 (grid0.coords t) = 1#1 :=
  (by decide +kernel : ∀ t : Fin grid0.N, t.val % 16 = 15 → k0_cond1 (grid0.coords t) = 1#1)

/-! ## What is written back is what the named data names -/

/-- At a point that writes window `w` back, whatever the body may have left in its buffer is the named contents:
    no input window has such a point; the first output's are points 1 to 15, where the relation names the gates of the
    block before; the second output's is the last point, where the kernel's test holds and the relation names that
    block's own gates. -/
theorem leaves_eq_after (c : Dev nD) : ∀ (w : Fin 7) (t : Fin cfg0.N) (X : (cfg0.win w).block.Idx → Elt F (cfg0.win w).elt),
    (cfg0.win w).flush t = true → (rdat m c).Leaves w t X → X = (datX m c).after w t
  | 0, t, _, hfl, _ => absurd ((flush0_in0 t).symm.trans hfl) Bool.false_ne_true
  | 1, t, _, hfl, _ => absurd ((flush0_in1 t).symm.trans hfl) Bool.false_ne_true
  | 2, t, _, hfl, _ => absurd ((flush0_in2 t).symm.trans hfl) Bool.false_ne_true
  | 3, t, _, hfl, _ => absurd ((flush0_in3 t).symm.trans hfl) Bool.false_ne_true
  | 4, t, _, hfl, _ => absurd ((flush0_in4 t).symm.trans hfl) Bool.false_ne_true
  | 5, t, X, hfl, ⟨Y, _, hYX⟩ => by
    have ht : 1 ≤ t.val := pos_of_flush0_5 t hfl
    dsimp only [rdat] at hYX
    dsimp only [datX]
    exact hYX (predPt t) (show t.val - 1 + 1 = t.val by omega)
  | 6, t, X, hfl, ⟨Y, _, hYX⟩ => by
    dsimp only [rdat] at hYX
    dsimp only [datX]
    exact hYX (cond1_of_last t ((flush0_6 t).mp hfl))
  | ⟨_ + 7, h⟩, _, _, _, _ => absurd h (Nat.not_lt.2 (Nat.le_add_left _ _))

/-- After the write-backs below point `n`, window `w`'s array holds what the named data computes. -/
theorem arrAt_of_ArrAt (c : Dev nD) (w : Fin cfg0.W) (n : ℕ)
    (G : Buf (Elt F) ((cfg0.win w).arr.view.loc (c : Thread nD τ))) (h : (rdat m c).ArrAt w n G) :
    G = (datX m c).arrAt w n := by
  induction n generalizing G with
  | zero => exact h
  | succ n ih =>
    by_cases hn : n < cfg0.N
    · -- One more point inside the grid: both sides step by that point's write-back, if it has one.
      have hR := (rdat m c).ArrAt_succ w ⟨n, hn⟩
      have hD := (datX m c).arrAt_succ w ⟨n, hn⟩
      dsimp only at hR hD
      rw [hR] at h
      rw [hD]
      by_cases hfl : (cfg0.win w).flush ⟨n, hn⟩ = true
      · rw [if_pos hfl] at h ⊢
        obtain ⟨G₀, X, hG₀, hX, rfl⟩ := h
        rw [ih G₀ hG₀, leaves_eq_after m c w ⟨n, hn⟩ X hfl hX]
      · rw [if_neg hfl] at h ⊢
        exact ih G h
    · -- Past the last point nothing is written any more.
      have hR : (rdat m c).ArrAt w (n + 1) = (rdat m c).ArrAt w n := by
        show (if h : n < cfg0.N then _ else (rdat m c).ArrAt w n) = _
        rw [dif_neg hn]
      have hD : (datX m c).arrAt w (n + 1) = (datX m c).arrAt w n := by
        show (if h : n < cfg0.N then _ else (datX m c).arrAt w n) = _
        rw [dif_neg hn]
      rw [hR] at h
      rw [hD]
      exact ih G h

end Cert.Kernel.Hand

end
-- ==== Proof.BitsGateLaunch.lean ====
/-
  The whole program's run: three host operations, the pipelined region, three host operations.

  Before the region the host reshapes the two bias vectors into rows and narrows the second weight matrix; the region
  is entered with every array at those contents and with a scratch holding whatever the machine left; its invariant
  says, from the second point on, that the slot the point before wrote holds that point's kept block. When the region
  ends the token array and the weights are as they were, the first output holds the gates of blocks 0 to 14 and the
  second output those of block 15; the host then splices the second into the last rows of the first. Every weakly fair
  execution ends there, nothing faulting, with the five arguments unchanged and the result at `finalOut`.
-/
import proofs.«114928_g52183852646652_cont_8to1_c_617_24_alg».proof.Proof.BitsGateData
import proofs.«114928_g52183852646652_cont_8to1_c_617_24_alg».proof.Proof.BitsGateArrays
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)
/-- The launch contents as a valuation. -/
abbrev Vl (c : Dev nD) : Valuation τ sig (Elt F) := fun b => m (c, b)
/-- The one pipeline's proof data. -/
abbrev rdats (_ : Fin 1) (c : Dev nD) : RDat τ (Elt F) Unit ℕ (UR sig nD τ) ℕ cfg0 c := rdat m c

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The three operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vl m) R

/-- The three operations after it, from the contents the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W1 m) R

/-! ## The contents after the region, buffer by buffer -/

theorem W1_out (c : Dev nD) : W1 m c (Proc.devRef .tc main_call0_v3_0) = outArr m c := by
  unfold W1; rw [Function.update_of_ne (StableHlo.devRef_ne_of_ne (by decide)), Function.update_self]

theorem W1_last (c : Dev nD) : W1 m c (Proc.devRef .tc main_call0_v3_1) = lastArr m c := by
  unfold W1; rw [Function.update_self]

theorem W1_other (c : Dev nD) (b : Ref sig .tc) (h0 : b ≠ main_call0_v3_0) (h1 : b ≠ main_call0_v3_1) :
    W1 m c (Proc.devRef .tc b) = V m c b := by
  unfold W1; rw [Function.update_of_ne (StableHlo.devRef_ne_of_ne h1), Function.update_of_ne (StableHlo.devRef_ne_of_ne h0)]

/-- The arrays as the region leaves them are the valuation `W1` at the arrays. -/
theorem arrs_eq_W1 (c : Dev nD) (w : Fin cfg0.W) :
    (datX m c).arrAt w cfg0.N = W1 m c (Proc.devRef .tc (Pipeline.arrRef spec0 w)) := by
  fin_cases w
  · exact ((datX m c).arrAt_in 0 rfl _).trans (W1_other m c main_arg0 (by decide) (by decide)).symm
  · exact ((datX m c).arrAt_in 1 rfl _).trans (W1_other m c main_arg1 (by decide) (by decide)).symm
  · exact ((datX m c).arrAt_in 2 rfl _).trans (W1_other m c main_call0_v0 (by decide) (by decide)).symm
  · exact ((datX m c).arrAt_in 3 rfl _).trans (W1_other m c main_call0_v2 (by decide) (by decide)).symm
  · exact ((datX m c).arrAt_in 4 rfl _).trans (W1_other m c main_call0_v1 (by decide) (by decide)).symm
  · exact (W1_out m c).symm
  · exact (W1_last m c).symm

/-- The arrays at their final contents and the buffers that bypassed the region are every unscoped buffer at `W1`. -/
theorem bufs_after_region (c : Dev nD) :
    iprop((rdat m c).arrays (fun w => (datX m c).arrAt w cfg0.N) ∗ Pipeline.unscopedRest spec0 c (V m c))
      ⊢ (StableHlo.held (c : Thread nD τ) (Pipeline.ucRefs τ sig) (W1 m c) : sProp 𝕄) := by
  rw [← Pipeline.unscopedBufs_held c (W1 m c),
    Pipeline.unscopedBufs_split cfgs 0 launch0.win.arr_unscoped launch0.win.arr_inj c (fun b => W1 m c (Proc.devRef .tc b)),
    Pipeline.RDat.arrays_eq (pcfgs (F := F)) adm (rdats m) 0 c launch0.arr_whole ((rdat m c).share_full fun _ => rfl)]
  refine sep_mono (Entails.of_eq (bigSep_congr fun w _ => by rw [arrs_eq_W1 m c w])) (Entails.of_eq ?_)
  unfold Pipeline.unscopedRest
  refine bigSep_congr fun b hb => ?_
  have hb' := (Finset.mem_sdiff.mp hb).2
  beta_reduce
  rw [W1_other m c b (fun h => hb' (h ▸ Finset.mem_image.mpr ⟨5, Finset.mem_univ _, rfl⟩))
    (fun h => hb' (h ▸ Finset.mem_image.mpr ⟨6, Finset.mem_univ _, rfl⟩))]

/-! ## The region -/

-- `iapply` of a Launch.lean lemma stated over `cfgs p` at the pinned configuration unifies only when unification may
-- unfold plain definitions in a metavariable's type
set_option backward.isDefEq.respectTransparency.types false in
/-- THE REGION: entered from what the first host stretch left — the seven windows' arrays into the pipeline, the rest
    bypassing —, its invariant made of the scratch alone, left with the arrays at their final contents. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem := fun k => k.elim
  ho := Pipeline.OwnSemFacts.none _
  hbody c := body_obligation m c
  hwaits := Pipeline.RDat.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from
      (Pipeline.unscopedBufs_held c _).symm]
    have hsplit := Pipeline.RDat.arrays_of_unscopedBufs (pcfgs (F := F)) adm (rdats m) (p := 0) launch0.win launch0.arr_whole c
      ((rdat m c).share_full fun _ => rfl) (V m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [scopedRest0_eq]
    dsimp only [rdats, rdat]
    simp only [owns_whole]
    iintro ⟨-, -, ⟨%f, Hs⟩⟩
    iexists f
    isplitl [Hs]
    · iexact Hs
    ipureintro
    intro p hp
    exact absurd hp (Nat.succ_ne_zero _)
  hout c := by
    rw [scopedRest0_eq, Pipeline.ownSems0_none]
    dsimp only [rdats, rdat]
    simp only [owns_whole]
    iintro ⟨%xs, Hs, -⟩
    isplitr; · iempintro
    isplitr; · iempintro
    iexists xs
    iexact Hs
  hexit c := by
    have harr : ((rdat m c).arraysAt cfg0.N : sProp 𝕄) ⊢ (rdat m c).arrays (fun w => (datX m c).arrAt w cfg0.N) := by
      have h1 : ∀ w : Fin cfg0.W,
          (iprop(∃ G, ⌜(rdat m c).ArrAt w cfg0.N G⌝ ∗ ((cfg0.win w).arr.view.loc (c : Thread nD τ) ↦[(cfg0.win w).arr.view.set]{(rdat m c).share w} G)) : sProp 𝕄)
            ⊢ ((cfg0.win w).arr.view.loc (c : Thread nD τ) ↦[(cfg0.win w).arr.view.set]{(rdat m c).share w} (datX m c).arrAt w cfg0.N) := fun w => by
        iintro ⟨%G, %hG, H⟩
        obtain rfl := arrAt_of_ArrAt m c w _ G hG
        iexact H
      unfold RDat.arraysAt RDat.arrays
      exact bigSep_mono fun w _ => h1 w
    iintro ⟨Ha, HO, -, HZ⟩
    ihave Ha' := harr $$ Ha
    ihave Hh := (bufs_after_region m c) $$ [Ha' HZ]
    · isplitl [Ha'] <;> iassumption
    imodintro
    isplitl [Hh]; · iexact Hh
    unfold Pipeline.RDat.owesAt Pipeline.owesWithin
    icases HO with ⟨%W, -, HO⟩; iexists W; iexact HO

/-! ## The run -/

/-- @main as its three segments. -/
abbrev segs : List (Pipeline.RDat.Seg (pcfgs (F := F)) adm (rdats m) () defs₀ 𝒱₀ L lv) :=
  [.host (seg0 m), .region (reg0 m), .host (seg1 m)]

/-- The launch element: the pipeline library's at the staging cells. -/
def u₀ : UR sig nD τ := initOf (Pipeline.cells cfgs cellOf_inj) (Pipeline.launchToks cfgs cellOf_inj)

/-- No operation before the region writes an argument, -/
theorem not_written0 (b : Ref sig .tc) (hb : b ≠ main_call0_v0 ∧ b ≠ main_call0_v1 ∧ b ≠ main_call0_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- nor any after it. -/
theorem not_written1 (b : Ref sig .tc) (hb : b ≠ main_call0_c ∧ b ≠ main_call0_c_0 ∧ b ≠ main_v0) :
    ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.nullary_writes, StableHlo.binaryIndexed_writes, Finset.mem_singleton] <;>
    exact StableHlo.devRef_ne_of_ne ‹_›

/-- An argument array ends as launched. -/
theorem arg_kept (c : Dev nD) (b : Ref sig .tc)
    (hb0 : b ≠ main_call0_v0 ∧ b ≠ main_call0_v1 ∧ b ≠ main_call0_v2) (hb1 : b ≠ main_call0_c ∧ b ≠ main_call0_c_0 ∧ b ≠ main_v0)
    (h0 : b ≠ main_call0_v3_0) (h1 : b ≠ main_call0_v3_1) :
    StableHlo.after hostOps1 (W1 m c) (Proc.devRef .tc b) = m ((c : Thread nD τ).loc b) :=
  (StableHlo.after_of_forall_not_mem (b := Proc.devRef .tc b) hostOps1 (W1 m c) (not_written1 b hb1)).trans
    ((W1_other m c b h0 h1).trans
      (StableHlo.after_of_forall_not_mem (b := Proc.devRef .tc b) hostOps0 (Vl m c) (not_written0 b hb0)))

/-! ## Reading the end -/

/-- One buffer out of a held set. -/
theorem held_get (c : Dev nD) (S : Finset (DevRef τ sig)) (Wv : Valuation τ sig (Elt F)) (b : DevRef τ sig) (hb : b ∈ S) :
    (StableHlo.held (c : Thread nD τ) S Wv : sProp 𝕄)
      ⊢ iprop(((((c : Thread nD τ).1, b) ↦{fullShare} Wv b) : sProp 𝕄) ∗ StableHlo.held (c : Thread nD τ) (S \ {b}) Wv) := by
  rw [StableHlo.held_sub_split (c : Thread nD τ) (Finset.singleton_subset_iff.mpr hb) Wv]
  unfold StableHlo.held; rw [BI.bigSep_singleton]

/-- What a final state holds: the result at `finalOut`, the five arguments as launched. -/
abbrev QY (c : Dev nD) (s : MemSt nD τ sig (Elt F)) : Prop :=
  s.mem ((c : Thread nD τ).loc main_v0) = finalOut m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem final_read (c : Dev nD) (s' : Phys nD τ sig (Elt F)) :
    iprop((StableHlo.held (c : Thread nD τ) (Pipeline.ucRefs τ sig) (StableHlo.after hostOps1 (W1 m c)) : sProp 𝕄) ∗ SI s')
      ⊢ |={Set.univ}=> iprop(⌜QY m c s'.mem⌝ ∗ SI s') := by
  iintro ⟨Hh, HSI⟩
  ihave H := (held_get c _ _ (Proc.devRef .tc main_v0) (by decide)) $$ Hh
  icases H with ⟨Hv, Hh⟩
  icombine HSI Hv gives %hv
  ihave H := (held_get c _ _ (Proc.devRef .tc main_arg0) (by decide)) $$ Hh
  icases H with ⟨H0, Hh⟩
  icombine HSI H0 gives %h0
  ihave H := (held_get c _ _ (Proc.devRef .tc main_arg1) (by decide)) $$ Hh
  icases H with ⟨H1, Hh⟩
  icombine HSI H1 gives %h1
  ihave H := (held_get c _ _ (Proc.devRef .tc main_arg2) (by decide)) $$ Hh
  icases H with ⟨H2, Hh⟩
  icombine HSI H2 gives %h2
  ihave H := (held_get c _ _ (Proc.devRef .tc main_arg3) (by decide)) $$ Hh
  icases H with ⟨H3, Hh⟩
  icombine HSI H3 gives %h3
  ihave H := (held_get c _ _ (Proc.devRef .tc main_arg4) (by decide)) $$ Hh
  icases H with ⟨H4, Hh⟩
  icombine HSI H4 gives %h4
  imodintro
  isplitr; swap; (· iexact HSI)
  ipureintro
  exact ⟨Buf.eq_of_forall_mem_univ hv,
    (Buf.eq_of_forall_mem_univ h0).trans (arg_kept m c main_arg0 (by decide) (by decide) (by decide) (by decide)),
    (Buf.eq_of_forall_mem_univ h1).trans (arg_kept m c main_arg1 (by decide) (by decide) (by decide) (by decide)),
    (Buf.eq_of_forall_mem_univ h2).trans (arg_kept m c main_arg2 (by decide) (by decide) (by decide) (by decide)),
    (Buf.eq_of_forall_mem_univ h3).trans (arg_kept m c main_arg3 (by decide) (by decide) (by decide) (by decide)),
    (Buf.eq_of_forall_mem_univ h4).trans (arg_kept m c main_arg4 (by decide) (by decide) (by decide) (by decide))⟩

-- the launch theorem's implicit arguments are found by unifying its conclusion with this one, which takes unfolding
-- plain definitions in a metavariable's type
set_option backward.isDefEq.respectTransparency.types false in
/-- At the compiled mesh, for any float values, from any memory with zero counters: every weakly fair execution of
    @main terminates, nothing faulting, and every final state has the result at `finalOut` and the five arguments
    unchanged. -/
theorem run_main : θ_run defs (onTc (τ := τ) (main (F := F))) ⟨m, fun _ => 0, ρ⟩ (fun r => ∀ c : Dev nD, QY m c r.2) :=
  Pipeline.RDat.θ_run_regions_kit (pcfgs (F := F)) adm (rdats m) () cellOf_inj EP defs₀ 𝒱₀ L lv m ρ main (segs m)
    (fun c Q => by rw [main_chain, Pipeline.RDat.Seg.run_eq_chain]; exact .rfl)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (StableHlo.after hostOps1 (W1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from
        Pipeline.unscopedBufs_held c (Vl m c)]
      iintro ⟨⟨Hh, -, HO, -, -, -⟩, -⟩
      imodintro
      isplitl [Hh]; · iexact Hh
      iexists ∅; iexact HO)
    (QY := QY m)
    (hfin := fun c s' => final_read m c s')
    (hQ := fun _ h => h)

end Cert.Kernel.Hand

end
-- ==== Proof.GateFinal.lean ====
/-
  The program's result, read block by block.

  When the region ends, block `p` of the first output (`p` from 0 to 14) holds what grid point `p + 1` wrote back —
  the gates of token block `p` —, its last block what the array held before, and the second output the gates of the
  last token block. The host then overwrites the last 512 rows of the first output with the second. So row
  `512 p + q` of the result is row `q` of block `p`'s gates: from the kept slot for `p < 15`, from the last point's own
  computation for `p = 15`.
-/
import proofs.«114928_g52183852646652_cont_8to1_c_617_24_alg».proof.Proof.GateBlocks
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

open Idealize.ShloMosaic.Tactic in
/-- The program's result is the first output with the second written over its rows from 7680 on. -/
theorem finalOut_eq_updateSlice (c : Dev nD) :
    finalOut m c = updateSlice (s := S8192x64) (u := S512x64) (outArr m c) (lastArr m c) ![7680, 0] ⟨rfl, by decide⟩ := by
  unfold finalOut
  show StableHlo.after hostOps1 _ (Proc.devRef .tc main_v0) = _
  after_results
  simp only [cast_eq]
  refine (Host.dynamicUpdateSlice_eq_updateSlice (s := S8192x64) (u := S512x64) _ _ _ _ ![7680, 0] ?_ ⟨rfl, by decide⟩).trans ?_
  · refine Fin.forall_fin_two.mpr ⟨?_, ?_⟩
    · simp only [Matrix.cons_val_zero]
      rw [StableHlo.nullary_result_ne]; rotate_left; decide
      rw [StableHlo.nullary_result]
      rfl
    · simp only [Matrix.cons_val_one, Matrix.cons_val_zero]
      rw [StableHlo.nullary_result]
      rfl
  · unfold W1
    rw [Function.update_self, Function.update_of_ne (StableHlo.devRef_ne_of_ne (by decide)), Function.update_self]

open Idealize.ShloMosaic.Pipeline (Dat)

/-- The first output's schedule, decided over the grid: point `t` holds row block `t - 1` (the first point block 0),
    column block 0, and writes its block back exactly from the second point on. -/
theorem out_index_facts : ∀ t : Fin cfg0.N, win0_5.index t (0 : Fin 2) = t.val - 1 ∧ win0_5.index t (1 : Fin 2) = 0
    ∧ ((cfg0.win 5).flush t = true ↔ 1 ≤ t.val) :=
  (by decide +kernel : ∀ t : Fin grid0.N, win0_5.index t (0 : Fin 2) = t.val - 1 ∧ win0_5.index t (1 : Fin 2) = 0
    ∧ (win0_5.flush t = true ↔ 1 ≤ t.val))

/-- An index of the first output is in point `t`'s block iff each coordinate is in the block's range on its axis. -/
theorem mem_out_blk (t : Fin cfg0.N) (i : S8192x64.Idx) :
    i ∈ ((cfg0.win 5).blk t).view.set ↔ ∀ a : Fin 2, win0_5.index t a * S512x64.size a ≤ (i a).val ∧ (i a).val < win0_5.index t a * S512x64.size a + S512x64.size a := by
  show i ∈ ((View.whole main_call0_v3_0).slice (win0_5.rect t)).set ↔ _
  rw [View.set_slice_whole, Rect.mem_set_unit]
  exact Iff.rfl

/-- Two different points that write the first output back write different row blocks. -/
theorem out_blocks_disjoint : ∀ t t' : Fin cfg0.N, (cfg0.win 5).flush t = true → (cfg0.win 5).flush t' = true → t ≠ t' →
    Disjoint ((cfg0.win 5).blk t).view.set ((cfg0.win 5).blk t').view.set := by
  intro t t' hf hf' hne
  rw [Finset.disjoint_left]
  intro i hi hi'
  rw [mem_out_blk] at hi hi'
  obtain ⟨e0, -, e2⟩ := out_index_facts t
  obtain ⟨e0', -, e2'⟩ := out_index_facts t'
  have b0 : win0_5.index t (0 : Fin 2) * 512 ≤ (i 0).val ∧ (i 0).val < win0_5.index t (0 : Fin 2) * 512 + 512 := hi 0
  have b0' : win0_5.index t' (0 : Fin 2) * 512 ≤ (i 0).val ∧ (i 0).val < win0_5.index t' (0 : Fin 2) * 512 + 512 := hi' 0
  have h1 := e2.mp hf
  have h1' := e2'.mp hf'
  exact hne (Fin.ext (by omega))

/-- Rows below 7680 of the first output when the region ends: block `p` is what point `p + 1` wrote back. -/
theorem outArr_apply (c : Dev nD) (p : Fin cfg0.N) (hp : p.val < 15) (q : Fin 512) (j : Fin 64) :
    outArr m c (ix2 (rowOf p q) j) = outBlk m c p (ix2 q j) := by
  have hlt : p.val + 1 < cfg0.N := Nat.lt_of_lt_of_eq (by omega : p.val + 1 < 16) N16.symm
  obtain ⟨e0, e1, e2⟩ := out_index_facts ⟨p.val + 1, hlt⟩
  have hf : (cfg0.win 5).flush ⟨p.val + 1, hlt⟩ = true := e2.mpr (Nat.le_add_left 1 p.val)
  have h := (datX m c).arrAt_emb_eq_flushed 5 out_blocks_disjoint ⟨p.val + 1, hlt⟩ hf (ix2 q j)
  have hemb : (((cfg0.win 5).blk ⟨p.val + 1, hlt⟩).view.emb (ix2 q j) : S8192x64.Idx) = ix2 (rowOf p q) j := by
    funext a; apply Fin.ext
    match a with
    | ⟨0, _⟩ =>
      show win0_5.index ⟨p.val + 1, hlt⟩ (0 : Fin 2) * 512 + 1 * q.val = 512 * p.val + q.val
      rw [e0]; show (p.val + 1 - 1) * 512 + 1 * q.val = _; omega
    | ⟨1, _⟩ =>
      show win0_5.index ⟨p.val + 1, hlt⟩ (1 : Fin 2) * 64 + 1 * j.val = j.val
      rw [e1]; omega
  have hpred : predPt ⟨p.val + 1, hlt⟩ = p := Fin.ext (Nat.add_sub_cancel p.val 1)
  rw [hemb] at h
  unfold outArr
  rw [h, cast_eq]
  show (cfg0.win 5).cut (grid0.coords ⟨p.val + 1, hlt⟩) ((datX m c).after 5 ⟨p.val + 1, hlt⟩) (ix2 q j) = _
  dsimp only [datX]
  rw [hpred]
  rfl

/-- The second output's one block is the whole array, at every point. -/
theorem last_index_facts : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The second output when the region ends: what the last point wrote back. -/
theorem lastArr_apply (c : Dev nD) (q : Fin 512) (j : Fin 64) :
    lastArr m c (ix2 q j) = lastBlk m c t0_15 (ix2 q j) := by
  obtain ⟨e0, e1⟩ := last_index_facts t0_15
  have hf : (cfg0.win 6).flush t0_15 = true := (flush0_6 t0_15).mpr rfl
  have hdisj : ∀ t t' : Fin cfg0.N, (cfg0.win 6).flush t = true → (cfg0.win 6).flush t' = true → t ≠ t' →
      Disjoint ((cfg0.win 6).blk t).view.set ((cfg0.win 6).blk t').view.set := by
    intro t t' hft hft' hne
    have h1 := (flush0_6 t).mp hft
    have h1' := (flush0_6 t').mp hft'
    have hl : t.val < 16 := Nat.lt_of_lt_of_eq t.isLt N16
    have hl' : t'.val < 16 := Nat.lt_of_lt_of_eq t'.isLt N16
    exact absurd (Fin.ext (by omega)) hne
  have h := (datX m c).arrAt_emb_eq_flushed 6 hdisj t0_15 hf (ix2 q j)
  have hemb : (((cfg0.win 6).blk t0_15).view.emb (ix2 q j) : S512x64.Idx) = ix2 q j := by
    funext a; apply Fin.ext
    match a with
    | ⟨0, _⟩ =>
      show win0_6.index t0_15 (0 : Fin 2) * 512 + 1 * q.val = q.val
      rw [e0]; omega
    | ⟨1, _⟩ =>
      show win0_6.index t0_15 (1 : Fin 2) * 64 + 1 * j.val = j.val
      rw [e1]; omega
  rw [hemb] at h
  unfold lastArr
  rw [h, cast_eq]
  show (cfg0.win 6).cut (grid0.coords t0_15) ((datX m c).after 6 t0_15) (ix2 q j) = _
  dsimp only [datX]
  rfl

/-- Rows below 7680: the block the next grid point wrote back. -/
theorem finalOut_apply_lo (c : Dev nD) (p : Fin cfg0.N) (hp : p.val < 15) (q : Fin 512) (j : Fin 64) :
    finalOut m c (ix2 (rowOf p q) j) = outBlk m c p (ix2 q j) := by
  rw [finalOut_eq_updateSlice]
  unfold updateSlice
  split
  · next hin =>
    have h0 : 7680 ≤ 512 * p.val + q.val := (hin 0).1
    have hq : q.val < 512 := q.isLt
    omega
  · exact outArr_apply m c p hp q j

/-- The last 512 rows: the second output, spliced in by the host. -/
theorem finalOut_apply_hi (c : Dev nD) (q : Fin 512) (j : Fin 64) :
    finalOut m c (ix2 (rowOf t0_15 q) j) = lastBlk m c t0_15 (ix2 q j) := by
  rw [finalOut_eq_updateSlice]
  unfold updateSlice
  have hq : q.val < 512 := q.isLt
  have hj : j.val < 64 := j.isLt
  split
  · refine Eq.trans (congrArg (lastArr m c) ?_) (lastArr_apply m c q j)
    funext b; apply Fin.ext
    match b with
    | ⟨0, _⟩ => show 512 * 15 + q.val - 7680 = q.val; omega
    | ⟨1, _⟩ => show j.val - 0 = j.val; omega
  · next hout =>
    refine absurd (fun a => ?_) hout
    match a with
    | ⟨0, _⟩ => show 7680 ≤ 512 * 15 + q.val ∧ 512 * 15 + q.val < 7680 + 512; omega
    | ⟨1, _⟩ => show 0 ≤ j.val ∧ j.val < 0 + 64; omega

end Cert.KernelIdeal.Hand

end
-- ==== Proof.GateSpec.lean ====
/-
  The mathematics both programs compute, index by index on the extended reals.

  For a token row `r` and an expert `j`:
    hidden r k  = max (Σ_d x[r,d] · W1[d,k] + b1[k]) 0          (the ReLU layer)
    logit  r j  = Σ_k hidden r k · W2[k,j] + b2[j]               (the gating layer)
  The kernel normalises `exp (logit r j)` by the reciprocal of the row's sum of exponentials (`gateK`);
  the reference first subtracts the row's maximum, then divides by the sum of the shifted exponentials (`gateR`).
  When every input entry is a real number the two agree: the common factor `exp (-max)` cancels (`gateK_eq_gateR`).
-/
import Idealize.ShloMosaic.PureOps.Ideal
import Idealize.ShloMosaic.PureOps.Ideal.Laws
import Idealize.ShloMosaic.Lib.ValueIdx
import Mathlib.Analysis.SpecialFunctions.Exp
import Mathlib.Data.EReal.Operations
import Mathlib.Algebra.BigOperators.Field
import Mathlib.Tactic.FieldSimp

noncomputable section

open scoped BigOperators

namespace Cert.GateSpec

open Idealize.ShloMosaic Idealize.ShloMosaic.ValueIdx

/-- The five argument arrays' shapes, and the result's. -/
abbrev SX : Shape := ⟨2, ![8192, 4096]⟩
abbrev SW1 : Shape := ⟨2, ![4096, 1024]⟩
abbrev SB1 : Shape := ⟨1, ![1024]⟩
abbrev SW2 : Shape := ⟨2, ![1024, 64]⟩
abbrev SB2 : Shape := ⟨1, ![64]⟩
abbrev SO : Shape := ⟨2, ![8192, 64]⟩

variable (x : SX.Idx → EReal) (w1 : SW1.Idx → EReal) (b1 : SB1.Idx → EReal) (w2 : SW2.Idx → EReal) (b2 : SB2.Idx → EReal)

/-- The ReLU layer at token row `r`, hidden unit `k`. -/
def hidden (r : Fin 8192) (k : Fin 1024) : EReal :=
  max ((∑ d : Fin 4096, x (ix2 r d) * w1 (ix2 d k)) + b1 (ix1 k)) 0

/-- The gating logit of token row `r` for expert `j`. -/
def logit (r : Fin 8192) (j : Fin 64) : EReal :=
  (∑ k : Fin 1024, hidden x w1 b1 r k * w2 (ix2 k j)) + b2 (ix1 j)

/-- The kernel's gate: the exponential times the reciprocal of the row's sum of exponentials. -/
def gateK (r : Fin 8192) (j : Fin 64) : EReal :=
  Ideal.exp (logit x w1 b1 w2 b2 r j) * Ideal.div 1 (∑ j' : Fin 64, Ideal.exp (logit x w1 b1 w2 b2 r j'))

/-- The largest logit of row `r` (the fold of `max` from `-∞`). -/
def rowMax (r : Fin 8192) : EReal :=
  (Finset.univ : Finset (Fin 64)).fold max ⊥ (fun j' => logit x w1 b1 w2 b2 r j')

/-- The reference's gate: the softmax with the row's maximum subtracted first. -/
def gateR (r : Fin 8192) (j : Fin 64) : EReal :=
  Ideal.div (Ideal.exp (logit x w1 b1 w2 b2 r j - rowMax x w1 b1 w2 b2 r))
    (∑ j' : Fin 64, Ideal.exp (logit x w1 b1 w2 b2 r j' - rowMax x w1 b1 w2 b2 r))

/-- A finite sum of coercions of real numbers is the coercion of their sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two real numbers is the larger of their coercions. -/
theorem coe_max (a b : ℝ) : ((max a b : ℝ) : EReal) = max (a : EReal) (b : EReal) :=
  EReal.coe_strictMono.monotone.map_max

/-- The fold of `max` from `⊥` over a nonempty finite family of real numbers is a real number. -/
theorem fold_max_bot_coe_real {ι : Type*} (f : ι → ℝ) (s : Finset ι) (hs : s.Nonempty) :
    ∃ m : ℝ, s.fold max ⊥ (fun i => (f i : EReal)) = (m : EReal) := by
  classical
  induction s using Finset.induction_on with
  | empty => exact absurd hs Finset.not_nonempty_empty
  | insert a s ha ih =>
    rw [Finset.fold_insert ha]
    rcases s.eq_empty_or_nonempty with rfl | hs'
    · exact ⟨f a, by rw [Finset.fold_empty, max_eq_left bot_le]⟩
    · obtain ⟨m, hm⟩ := ih hs'
      exact ⟨max (f a) m, by rw [hm, coe_max]⟩

/-- Subtracting one real number from every exponent leaves the normalised exponential unchanged:
    the common factor `exp (-M)` cancels between the numerator and the sum. -/
theorem exp_mul_one_div_sum_eq_exp_sub_div_sum (l : Fin 64 → ℝ) (M : ℝ) (j : Fin 64) :
    Real.exp (l j) * (1 / ∑ k : Fin 64, Real.exp (l k))
      = Real.exp (l j - M) / ∑ k : Fin 64, Real.exp (l k - M) := by
  have hpos : (0 : ℝ) < ∑ k : Fin 64, Real.exp (l k) :=
    Finset.sum_pos (fun k _ => Real.exp_pos _) Finset.univ_nonempty
  have hM : Real.exp M ≠ 0 := (Real.exp_pos M).ne'
  simp only [Real.exp_sub]
  rw [← Finset.sum_div]
  field_simp

/-- On real inputs every hidden unit is a real number. -/
theorem hidden_real
    (hx : ∀ i, ∃ a : ℝ, x i = (a : EReal)) (hw1 : ∀ i, ∃ a : ℝ, w1 i = (a : EReal)) (hb1 : ∀ i, ∃ a : ℝ, b1 i = (a : EReal))
    (r : Fin 8192) (k : Fin 1024) : ∃ h : ℝ, hidden x w1 b1 r k = (h : EReal) := by
  choose X hX using hx
  choose W hW using hw1
  choose B hB using hb1
  refine ⟨max ((∑ d : Fin 4096, X (ix2 r d) * W (ix2 d k)) + B (ix1 k)) 0, ?_⟩
  unfold hidden
  simp only [hX, hW, hB]
  rw [coe_max, EReal.coe_add, coe_finset_sum]
  simp only [EReal.coe_mul, EReal.coe_zero]

/-- On real inputs every logit is a real number. -/
theorem logit_real
    (hx : ∀ i, ∃ a : ℝ, x i = (a : EReal)) (hw1 : ∀ i, ∃ a : ℝ, w1 i = (a : EReal)) (hb1 : ∀ i, ∃ a : ℝ, b1 i = (a : EReal))
    (hw2 : ∀ i, ∃ a : ℝ, w2 i = (a : EReal)) (hb2 : ∀ i, ∃ a : ℝ, b2 i = (a : EReal))
    (r : Fin 8192) (j : Fin 64) : ∃ l : ℝ, logit x w1 b1 w2 b2 r j = (l : EReal) := by
  choose H hH using fun k => hidden_real x w1 b1 hx hw1 hb1 r k
  choose W hW using hw2
  choose B hB using hb2
  refine ⟨(∑ k : Fin 1024, H k * W (ix2 k j)) + B (ix1 j), ?_⟩
  unfold logit
  simp only [hH, hW, hB]
  rw [EReal.coe_add, coe_finset_sum]
  simp only [EReal.coe_mul]

/-- The f32 pattern of one denotes the real number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The f32 pattern of negative infinity denotes the bottom element. -/
theorem ofBits_neg_inf_f32 : Ideal.ofBits .f32 0xFF800000#32 = ⊥ := by
  simp [Ideal.ofBits, Ideal.ieee]

/-- On inputs whose every entry is a real number the two gates agree. -/
theorem gateK_eq_gateR
    (hx : ∀ i, ∃ a : ℝ, x i = (a : EReal)) (hw1 : ∀ i, ∃ a : ℝ, w1 i = (a : EReal)) (hb1 : ∀ i, ∃ a : ℝ, b1 i = (a : EReal))
    (hw2 : ∀ i, ∃ a : ℝ, w2 i = (a : EReal)) (hb2 : ∀ i, ∃ a : ℝ, b2 i = (a : EReal)) (r : Fin 8192) (j : Fin 64) :
    gateK x w1 b1 w2 b2 r j = gateR x w1 b1 w2 b2 r j := by
  choose L hL using fun j' => logit_real x w1 b1 w2 b2 hx hw1 hb1 hw2 hb2 r j'
  obtain ⟨M, hM⟩ : ∃ M : ℝ, rowMax x w1 b1 w2 b2 r = (M : EReal) := by
    unfold rowMax
    simp only [hL]
    exact fold_max_bot_coe_real L Finset.univ Finset.univ_nonempty
  have hS : (∑ j' : Fin 64, Real.exp (L j')) ≠ 0 :=
    (Finset.sum_pos (fun k _ => Real.exp_pos _) Finset.univ_nonempty).ne'
  have hS' : (∑ j' : Fin 64, Real.exp (L j' - M)) ≠ 0 :=
    (Finset.sum_pos (fun k _ => Real.exp_pos _) Finset.univ_nonempty).ne'
  unfold gateK gateR
  rw [hM]
  simp only [hL, ← EReal.coe_sub, Ideal.exp_coe, ← coe_finset_sum]
  rw [Ideal.div_coe hS, Ideal.div_coe hS', one_mul, ← EReal.coe_mul, ← EReal.coe_mul,
    exp_mul_one_div_sum_eq_exp_sub_div_sum L M j, mul_one_div]

end Cert.GateSpec

end
-- ==== Proof.KernelValue.lean ====
/-
  The kernel body's arithmetic at the exact instance, one element at a time. For a block of 512 token rows:
  the first matrix product plus bias through the ReLU (`hidden`), its copy kept for the next grid point, and the
  gate computed from a kept copy (the pipelined tail) or from the block itself (the last block's tail):
  exponentials of the logits times the reciprocal of their row sum.
-/
import proofs.«114928_g52183852646652_cont_8to1_c_617_24_alg».proof.Proof.Gen.KernelIdeal.Skeleton
import proofs.«114928_g52183852646652_cont_8to1_c_617_24_alg».proof.Proof.GateSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KValue

open Idealize.ShloMosaic Idealize.ShloMosaic.ValueIdx Cert.KernelIdeal Cert.KernelIdeal.Gen

/-! ## The two matrix products' operand indices

Both products contract the left operand's columns with the right operand's rows. At output index `i` and contraction
index `q` the left operand is read at row `i 0`, column `q`, and the right operand at row `q`, column `i 1`. -/

/-- First product: the left operand's row is the output's row. -/
theorem firstProduct_lhs_row (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
/-- First product: the left operand's column is the contraction coordinate. -/
theorem firstProduct_lhs_col (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
/-- First product: the right operand's row is the contraction coordinate. -/
theorem firstProduct_rhs_row (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
/-- First product: the right operand's column is the output's column. -/
theorem firstProduct_rhs_col (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- Second product: the left operand's row is the output's row. -/
theorem secondProduct_lhs_row (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
/-- Second product: the left operand's column is the contraction coordinate. -/
theorem secondProduct_lhs_col (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
/-- Second product: the right operand's row is the contraction coordinate. -/
theorem secondProduct_rhs_row (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
/-- Second product: the right operand's column is the output's column. -/
theorem secondProduct_rhs_col (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-! ## The two matrix products at an index -/

/-- A [512, 4096] block times the [4096, 1024] weights, accumulated into zero: entry `(p, k)` is the sum over `d` of the
    products. -/
theorem firstProduct_apply (x0 : FVec Ideal S512x4096 .f32) (x1 : FVec Ideal S4096x1024 .f32) (p : Fin 512) (k : Fin 1024) :
    matmul dot_S512x4096_S4096x1024_S512x1024_1_0_0_1_n_n none x0 x1 (constant (F := Ideal) S512x1024 .f32 0x00000000#32) (ix2 p k)
      = ∑ d : Fin 4096, x0 (ix2 p d) * x1 (ix2 d k) := by
  refine (Ideal.matmul_constant_zero_apply dot_S512x4096_S4096x1024_S512x1024_1_0_0_1_n_n none x0 x1 (ix2 p k)).trans ?_
  rw [← Equiv.sum_comp (contrEquiv1 dot_S512x4096_S4096x1024_S512x1024_1_0_0_1_n_n 4096 rfl rfl).symm]
  refine Finset.sum_congr rfl fun d _ => ?_
  have hd := contrEquiv1_symm_val dot_S512x4096_S4096x1024_S512x1024_1_0_0_1_n_n 4096 rfl rfl d
  have el : dot_S512x4096_S4096x1024_S512x1024_1_0_0_1_n_n.lhsIdx (ix2 p k) ((contrEquiv1 dot_S512x4096_S4096x1024_S512x1024_1_0_0_1_n_n 4096 rfl rfl).symm d) = ix2 p d := funext fun a => Fin.ext (by
    match a with
    | ⟨0, _⟩ => exact firstProduct_lhs_row _ _
    | ⟨1, _⟩ => exact (firstProduct_lhs_col _ _).trans hd)
  have er : dot_S512x4096_S4096x1024_S512x1024_1_0_0_1_n_n.rhsIdx (ix2 p k) ((contrEquiv1 dot_S512x4096_S4096x1024_S512x1024_1_0_0_1_n_n 4096 rfl rfl).symm d) = ix2 d k := funext fun a => Fin.ext (by
    match a with
    | ⟨0, _⟩ => exact (firstProduct_rhs_row _ _).trans hd
    | ⟨1, _⟩ => exact firstProduct_rhs_col _ _)
  rw [el, er]

/-- A [512, 1024] block (of either float format) times the [1024, 64] gating weights, accumulated into zero: entry
    `(p, j)` is the sum over `k` of the products. -/
theorem secondProduct_apply {φ : FTy} (h : FVec Ideal S512x1024 φ) (w : FVec Ideal S1024x64 .bf16) (p : Fin 512) (j : Fin 64) :
    matmul dot_S512x1024_S1024x64_S512x64_1_0_0_1_n_n none h w (constant (F := Ideal) S512x64 .f32 0x00000000#32) (ix2 p j)
      = ∑ k : Fin 1024, h (ix2 p k) * w (ix2 k j) := by
  refine (Ideal.matmul_constant_zero_apply dot_S512x1024_S1024x64_S512x64_1_0_0_1_n_n none h w (ix2 p j)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p j) ((contrEquiv1 dot_S512x1024_S1024x64_S512x64_1_0_0_1_n_n 1024 rfl rfl).symm k) = ix2 p k := funext fun a => Fin.ext (by
    match a with
    | ⟨0, _⟩ => exact secondProduct_lhs_row _ _
    | ⟨1, _⟩ => exact (secondProduct_lhs_col _ _).trans hk)
  have er : dot_S512x1024_S1024x64_S512x64_1_0_0_1_n_n.rhsIdx (ix2 p j) ((contrEquiv1 dot_S512x1024_S1024x64_S512x64_1_0_0_1_n_n 1024 rfl rfl).symm k) = ix2 k j := funext fun a => Fin.ext (by
    match a with
    | ⟨0, _⟩ => exact (secondProduct_rhs_row _ _).trans hk
    | ⟨1, _⟩ => exact secondProduct_rhs_col _ _)
  rw [el, er]

/-! ## The column forms of a row sum kept as a column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row sum over the 64 experts -/

/-- The sum of a [512, 64] block along its second axis, at row `p`: the sum over the 64 columns. -/
theorem rowSum_apply (v : FVec Ideal S512x64 .f32) (hφ : FKind.Formats .f32) (hacc : (0x00000000#32 : BitVec 32) = 0x00000000#32)
    (p : Fin 512) :
    multiReduction (F := Ideal) .add [1] S512 v 0x00000000#32 reduces_S512x64_S512 hφ hacc (ix1 p) = ∑ j : Fin 64, v (ix2 p j) := by
  refine (Ideal.multiReduction_add_single v 0x00000000#32 reduces_S512x64_S512 hφ hacc (ix1 p)).trans ?_
  refine Finset.sum_congr rfl fun j _ => congrArg v (funext fun a => Fin.ext ?_)
  match a with
  | ⟨0, _⟩ => rfl
  | ⟨1, _⟩ => rfl

/-! ## The gate from a block of hidden values -/

/-- The logits of a block: the second product plus the bias row, at row `p` and expert `j`. -/
theorem logits_apply {φ : FTy} (h : FVec Ideal S512x1024 φ) (w : FVec Ideal S1024x64 .bf16) (b : FVec Ideal S1x64 .f32)
    (p : Fin 512) (j : Fin 64) :
    addf (matmul dot_S512x1024_S1024x64_S512x64_1_0_0_1_n_n none h (shapeCast S1024x64 w shapeCasts_S1024x64_S1024x64)
          (constant (F := Ideal) S512x64 .f32 0x00000000#32))
        (broadcastTo S512x64 (shapeCast S1x64 b shapeCasts_S1x64_S1x64) broadcasts_S1x64_S512x64) (ix2 p j)
      = (∑ k : Fin 1024, h (ix2 p k) * w (ix2 k j)) + b (ix2 0 j) := by
  rw [addf_apply, shapeCast_self, shapeCast_self, secondProduct_apply, broadcastTo_1b_ab_apply]

/-- The exponentials of a block of logits `z`, each times the reciprocal of its row's sum of exponentials. -/
theorem normalised_apply (z : FVec Ideal S512x64 .f32) (hφ : FKind.Formats .f32) (hacc : (0x00000000#32 : BitVec 32) = 0x00000000#32)
    (p : Fin 512) (j : Fin 64) :
    mulf (exp z)
        (broadcastTo S512x64
          (divf (broadcast S512x1 (Scalar.ofBits (F := Ideal) .f32 0x3F800000#32))
            (shapeCast S512x1 (multiReduction (F := Ideal) .add [1] S512 (exp z) 0x00000000#32 reduces_S512x64_S512 hφ hacc)
              shapeCasts_S512_S512x1))
          broadcasts_S512x1_S512x64) (ix2 p j)
      = Ideal.exp (z (ix2 p j)) * Ideal.div 1 (∑ j' : Fin 64, Ideal.exp (z (ix2 p j'))) := by
  rw [mulf_apply, broadcastTo_a1_ab_apply, divf_apply, broadcast_apply, shapeCast_a_a1_apply, rowSum_apply]
  show Ideal.exp (z (ix2 p j)) * Ideal.div (Ideal.ofBits .f32 0x3F800000#32) (∑ j' : Fin 64, Ideal.exp (z (ix2 p j'))) = _
  rw [Cert.GateSpec.ofBits_one_f32]

/-- The first product as the body computes it, at row `p` and hidden unit `k`. -/
theorem firstLayer_apply (x0 : FVec Ideal S512x4096 .f32) (x1 : FVec Ideal S4096x1024 .f32) (p : Fin 512) (k : Fin 1024) :
    k0_pay4 (F := Ideal) x0 x1 (ix2 p k) = ∑ d : Fin 4096, x0 (ix2 p d) * x1 (ix2 d k) := by
  unfold k0_pay4
  exact firstProduct_apply x0 x1 p k

/-! ## The body's payloads at an index -/

/-- The ReLU layer of a block: row `p`, hidden unit `k`. -/
theorem hidden_apply (x0 : Vec Ideal S512x4096 .f32) (x1 : Vec Ideal S4096x1024 .f32) (x2 : Vec Ideal S1x1024 .f32)
    (p : Fin 512) (k : Fin 1024) :
    k0_pay1 (F := Ideal) (k0_pay4 x0 x1) x2 (ix2 p k)
      = max ((∑ d : Fin 4096, x0 (ix2 p d) * x1 (ix2 d k)) + x2 (ix2 0 k)) 0 := by
  unfold k0_pay1
  rw [maximumf_apply, addf_apply, broadcast_apply, broadcastTo_1b_ab_apply, shapeCast_self, firstLayer_apply,
    Ideal.ofBits_def, Ideal.ofBits_zero_f32]

/-- The copy kept in the scratch slot is the ReLU layer's block, reshaped with a leading unit axis. -/
theorem kept_apply (v2 : FVec Ideal S512x1024 .f32) (x2 : Vec Ideal S1x1024 .f32) (p : Fin 512) (k : Fin 1024) :
    k0_pay2 (F := Ideal) v2 x2 (ix3 0 p k) = k0_pay1 (F := Ideal) v2 x2 (ix2 p k) := by
  unfold k0_pay2
  rw [shapeCast_ab_1ab_apply, truncf_apply]

/-- The pipelined tail: from a kept slot `v15`, the gate of row `p` for expert `j`. -/
theorem tail_apply (v15 : Vec Ideal S1x512x1024 .bf16) (x3 : Vec Ideal S1024x64 .bf16) (x4 : Vec Ideal S1x64 .f32)
    (p : Fin 512) (j : Fin 64) :
    k0_pay5 (F := Ideal) v15 x3 x4 (ix2 p j)
      = Ideal.exp ((∑ k : Fin 1024, v15 (ix3 0 p k) * x3 (ix2 k j)) + x4 (ix2 0 j))
        * Ideal.div 1 (∑ j' : Fin 64, Ideal.exp ((∑ k : Fin 1024, v15 (ix3 0 p k) * x3 (ix2 k j')) + x4 (ix2 0 j'))) := by
  unfold k0_pay5
  refine (normalised_apply _ _ _ p j).trans ?_
  simp only [logits_apply, shapeCast_1ab_ab_apply]

/-- The last block's tail: the same gate computed from the block's own ReLU layer. -/
theorem last_apply (v2 : FVec Ideal S512x1024 .f32) (x2 : Vec Ideal S1x1024 .f32) (x3 : Vec Ideal S1024x64 .bf16)
    (x4 : Vec Ideal S1x64 .f32) (p : Fin 512) (j : Fin 64) :
    k0_pay3 (F := Ideal) v2 x2 x3 x4 (ix2 p j)
      = Ideal.exp ((∑ k : Fin 1024, k0_pay1 (F := Ideal) v2 x2 (ix2 p k) * x3 (ix2 k j)) + x4 (ix2 0 j))
        * Ideal.div 1 (∑ j' : Fin 64, Ideal.exp ((∑ k : Fin 1024, k0_pay1 (F := Ideal) v2 x2 (ix2 p k) * x3 (ix2 k j')) + x4 (ix2 0 j'))) := by
  unfold k0_pay3
  refine (normalised_apply _ _ _ p j).trans ?_
  simp only [logits_apply]

end Cert.KernelIdeal.KValue

end
-- ==== Proof.KernelGateBlocks.lean ====
/-
  The gates the kernel leaves in an output block are the kernel's gate formula of the five argument arrays.

  The region's input windows are blocks of the arguments: token block `p` is rows `512 p` to `512 p + 511` of the
  token array; the first weight matrix is its argument; the bias rows are the bias vectors with a leading unit axis; the
  second weight matrix is its argument with the format narrowed, which at the exact instance changes nothing. So row `q`
  of block `p`'s gates is the gate formula at token row `512 p + q` — whether the block went through the kept slot
  (`outBlk`) or was turned into gates at its own grid point (`lastBlk`).
-/
import proofs.«114928_g52183852646652_cont_8to1_c_617_24_alg».proof.Proof.GateBlocks
import proofs.«114928_g52183852646652_cont_8to1_c_617_24_alg».proof.Proof.KernelValue
import proofs.«114928_g52183852646652_cont_8to1_c_617_24_alg».proof.Proof.GateSpec

set_option maxRecDepth 16384

noncomputable section

open scoped BigOperators

namespace Cert.KernelIdeal.KGate

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The five argument arrays at launch, as the spec's arrays. -/
abbrev ax (c : Dev nD) : Cert.GateSpec.SX.Idx → EReal := m ((c : Thread nD τ).loc main_arg0)
abbrev aw1 (c : Dev nD) : Cert.GateSpec.SW1.Idx → EReal := m ((c : Thread nD τ).loc main_arg1)
abbrev ab1 (c : Dev nD) : Cert.GateSpec.SB1.Idx → EReal := m ((c : Thread nD τ).loc main_arg2)
abbrev aw2 (c : Dev nD) : Cert.GateSpec.SW2.Idx → EReal := m ((c : Thread nD τ).loc main_arg3)
abbrev ab2 (c : Dev nD) : Cert.GateSpec.SB2.Idx → EReal := m ((c : Thread nD τ).loc main_arg4)

/-! ## The region's input arrays in terms of the launch arrays -/

/-- None of the three host operations before the region writes the token array or the first weight matrix. -/
theorem args_not_written (b : Ref sig .tc) (hb : b ≠ main_call0_v0 ∧ b ≠ main_call0_v1 ∧ b ≠ main_call0_v2) :
    ∀ op ∈ (hostOps0 (F := Ideal)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- The token array reaches the region as launched. -/
theorem V_tokens (c : Dev nD) : V m c main_arg0 = m ((c : Thread nD τ).loc main_arg0) :=
  StableHlo.after_of_forall_not_mem (b := Proc.devRef .tc main_arg0) hostOps0 _ (args_not_written main_arg0 (by decide))

/-- The first weight matrix reaches the region as launched. -/
theorem V_firstWeights (c : Dev nD) : V m c main_arg1 = m ((c : Thread nD τ).loc main_arg1) :=
  StableHlo.after_of_forall_not_mem (b := Proc.devRef .tc main_arg1) hostOps0 _ (args_not_written main_arg1 (by decide))

/-- The first bias row is the first bias vector with a leading unit axis. -/
theorem V_firstBias (c : Dev nD) :
    (V m c main_call0_v0 : S1x1024.Idx → EReal) = shapeCast S1x1024 (ab1 m c) shapeCasts_S1024_S1x1024 := by
  dsimp only [V, V0, hostOps0]
  after_results
  rfl

/-- The second bias row is the second bias vector with a leading unit axis. -/
theorem V_secondBias (c : Dev nD) :
    (V m c main_call0_v1 : S1x64.Idx → EReal) = shapeCast S1x64 (ab2 m c) shapeCasts_S64_S1x64 := by
  dsimp only [V, V0, hostOps0]
  after_results
  rfl

/-- The second weight matrix is its argument with the format narrowed: on the extended reals, the same entries. -/
theorem V_secondWeights (c : Dev nD) (i : S1024x64.Idx) :
    (V m c main_call0_v2 : S1024x64.Idx → EReal) i = aw2 m c i := by
  dsimp only [V, V0, hostOps0]
  after_results
  rfl

/-! ## The windows' block indices, decided over the grid -/

/-- The token window's block at point `t` is block `t` along the rows; every other input window has one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks at an index -/

/-- Row `q` of token block `t` is row `512 t + q` of the token array. -/
theorem xBlk_apply (c : Dev nD) (t : Fin cfg0.N) (q : Fin 512) (d : Fin 4096) :
    xBlk (F := Ideal) m c t (ix2 q d) = ax m c (ix2 (rowOf t q) d) := by
  show V m c main_arg0 (((cfg0.win 0).blk t).view.emb (ix2 q d)) = _
  rw [V_tokens]
  obtain ⟨e0, e1, -⟩ := index_facts t
  refine congrArg (m ((c : Thread nD τ).loc main_arg0)) (funext fun a => Fin.ext ?_)
  match a with
  | ⟨0, _⟩ => show win0_0.index t (0 : Fin 2) * 512 + 1 * q.val = 512 * t.val + q.val; omega
  | ⟨1, _⟩ => show win0_0.index t (1 : Fin 2) * 4096 + 1 * d.val = d.val; omega

/-- The first weight matrix's one block is the whole matrix. -/
theorem w1Blk_apply (c : Dev nD) (d : Fin 4096) (k : Fin 1024) :
    w1Blk (F := Ideal) m c (ix2 d k) = aw1 m c (ix2 d k) := by
  show V m c main_arg1 (((cfg0.win 1).blk t0_0).view.emb (ix2 d k)) = _
  rw [V_firstWeights]
  obtain ⟨-, -, e0, e1, -⟩ := index_facts t0_0
  refine congrArg (m ((c : Thread nD τ).loc main_arg1)) (funext fun a => Fin.ext ?_)
  match a with
  | ⟨0, _⟩ => show win0_1.index t0_0 (0 : Fin 2) * 4096 + 1 * d.val = d.val; omega
  | ⟨1, _⟩ => show win0_1.index t0_0 (1 : Fin 2) * 1024 + 1 * k.val = k.val; omega

/-- The first bias row's one block, at hidden unit `k`, is the first bias vector there. -/
theorem b1Blk_apply (c : Dev nD) (k : Fin 1024) :
    b1Blk (F := Ideal) m c (ix2 0 k) = ab1 m c (ix1 k) := by
  show (V m c main_call0_v0 : S1x1024.Idx → EReal) (((cfg0.win 2).blk t0_0).view.emb (ix2 0 k)) = _
  rw [V_firstBias]
  obtain ⟨-, -, -, -, e0, e1, -⟩ := index_facts t0_0
  refine (congrArg (shapeCast S1x1024 (ab1 m c) shapeCasts_S1024_S1x1024) (funext fun a => Fin.ext ?_)).trans
    (shapeCast_a_1a_apply (ab1 m c) shapeCasts_S1024_S1x1024 0 k)
  match a with
  | ⟨0, _⟩ => show win0_2.index t0_0 (0 : Fin 2) * 1 + 1 * 0 = 0; omega
  | ⟨1, _⟩ => show win0_2.index t0_0 (1 : Fin 2) * 1024 + 1 * k.val = k.val; omega

/-- The second weight matrix's one block is the second weight matrix. -/
theorem w2Blk_apply (c : Dev nD) (k : Fin 1024) (j : Fin 64) :
    w2Blk (F := Ideal) m c (ix2 k j) = aw2 m c (ix2 k j) := by
  show (V m c main_call0_v2 : S1024x64.Idx → EReal) (((cfg0.win 3).blk t0_0).view.emb (ix2 k j)) = _
  rw [V_secondWeights]
  obtain ⟨-, -, -, -, -, -, e0, e1, -⟩ := index_facts t0_0
  refine congrArg (aw2 m c) (funext fun a => Fin.ext ?_)
  match a with
  | ⟨0, _⟩ => show win0_3.index t0_0 (0 : Fin 2) * 1024 + 1 * k.val = k.val; omega
  | ⟨1, _⟩ => show win0_3.index t0_0 (1 : Fin 2) * 64 + 1 * j.val = j.val; omega

/-- The second bias row's one block, at expert `j`, is the second bias vector there. -/
theorem b2Blk_apply (c : Dev nD) (j : Fin 64) :
    b2Blk (F := Ideal) m c (ix2 0 j) = ab2 m c (ix1 j) := by
  show (V m c main_call0_v1 : S1x64.Idx → EReal) (((cfg0.win 4).blk t0_0).view.emb (ix2 0 j)) = _
  rw [V_secondBias]
  obtain ⟨-, -, -, -, -, -, -, -, e0, e1⟩ := index_facts t0_0
  refine (congrArg (shapeCast S1x64 (ab2 m c) shapeCasts_S64_S1x64) (funext fun a => Fin.ext ?_)).trans
    (shapeCast_a_1a_apply (ab2 m c) shapeCasts_S64_S1x64 0 j)
  match a with
  | ⟨0, _⟩ => show win0_4.index t0_0 (0 : Fin 2) * 1 + 1 * 0 = 0; omega
  | ⟨1, _⟩ => show win0_4.index t0_0 (1 : Fin 2) * 64 + 1 * j.val = j.val; omega

/-! ## The ReLU layer of a block, and the gates -/

/-- The ReLU layer of token block `p` at row `q`, hidden unit `k`, is the spec's at row `512 p + q`. -/
theorem hiddenBlk_apply (c : Dev nD) (p : Fin cfg0.N) (q : Fin 512) (k : Fin 1024) :
    k0_pay1 (F := Ideal) (k0_pay4 (xBlk m c p) (w1Blk m c)) (b1Blk m c) (ix2 q k)
      = Cert.GateSpec.hidden (ax m c) (aw1 m c) (ab1 m c) (rowOf p q) k := by
  refine (KValue.hidden_apply (xBlk m c p) (w1Blk m c) (b1Blk m c) q k).trans ?_
  unfold Cert.GateSpec.hidden
  simp only [xBlk_apply, w1Blk_apply, b1Blk_apply]

/-- The slot kept for block `p`, at row `q` and hidden unit `k`, holds the same. -/
theorem keptBlk_apply (c : Dev nD) (p : Fin cfg0.N) (q : Fin 512) (k : Fin 1024) :
    keptBlk (F := Ideal) m c p (ix3 0 q k) = Cert.GateSpec.hidden (ax m c) (aw1 m c) (ab1 m c) (rowOf p q) k :=
  (KValue.kept_apply (k0_pay4 (xBlk m c p) (w1Blk m c)) (b1Blk m c) q k).trans (hiddenBlk_apply m c p q k)

/-- Block `p`'s gates made from the kept slot: the gate formula at the block's rows. -/
theorem outBlk_apply (c : Dev nD) (p : Fin cfg0.N) (q : Fin 512) (j : Fin 64) :
    outBlk (F := Ideal) m c p (ix2 q j)
      = Cert.GateSpec.gateK (ax m c) (aw1 m c) (ab1 m c) (aw2 m c) (ab2 m c) (rowOf p q) j := by
  refine (KValue.tail_apply (keptBlk m c p) (w2Blk m c) (b2Blk m c) q j).trans ?_
  unfold Cert.GateSpec.gateK Cert.GateSpec.logit
  simp only [keptBlk_apply, w2Blk_apply, b2Blk_apply]

/-- Block `t`'s gates made at its own grid point: the same. -/
theorem lastBlk_apply (c : Dev nD) (t : Fin cfg0.N) (q : Fin 512) (j : Fin 64) :
    lastBlk (F := Ideal) m c t (ix2 q j)
      = Cert.GateSpec.gateK (ax m c) (aw1 m c) (ab1 m c) (aw2 m c) (ab2 m c) (rowOf t q) j := by
  refine (KValue.last_apply (k0_pay4 (xBlk m c t) (w1Blk m c)) (b1Blk m c) (w2Blk m c) (b2Blk m c) q j).trans ?_
  unfold Cert.GateSpec.gateK Cert.GateSpec.logit
  simp only [hiddenBlk_apply, w2Blk_apply, b2Blk_apply]

end Cert.KernelIdeal.KGate

end
-- ==== Proof.KernelGate.lean ====
/-
  The program's result is the kernel's gate formula of the five argument arrays, at every token row and expert.

  Token row `r` lies in block `r / 512` at row `r % 512`. Below row 7680 the result's row is the row of that block's
  gates the next grid point wrote back; from row 7680 on it is the row of the last block's gates the host spliced in.
  Either way the gates of a block's row are the gate formula at the token row.
-/
import proofs.«114928_g52183852646652_cont_8to1_c_617_24_alg».proof.Proof.GateFinal
import proofs.«114928_g52183852646652_cont_8to1_c_617_24_alg».proof.Proof.KernelGateBlocks

set_option maxRecDepth 16384

noncomputable section

namespace Cert.KernelIdeal.KGate

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The result at token row `r`, expert `j`. -/
theorem finalOut_apply (c : Dev nD) (r : Fin 8192) (j : Fin 64) :
    finalOut (F := Ideal) m c (ix2 r j)
      = Cert.GateSpec.gateK (ax m c) (aw1 m c) (ab1 m c) (aw2 m c) (ab2 m c) r j := by
  have hN : cfg0.N = 16 := N16
  by_cases hr : r.val < 7680
  · -- the row lies in one of the first fifteen blocks: block `r / 512`, row `r % 512`
    have hp : r.val / 512 < cfg0.N := by rw [hN]; omega
    have e : r = rowOf ⟨r.val / 512, hp⟩ ⟨r.val % 512, Nat.mod_lt _ (by decide)⟩ :=
      Fin.ext (by show r.val = 512 * (r.val / 512) + r.val % 512; omega)
    rw [e]
    exact (finalOut_apply_lo m c ⟨r.val / 512, hp⟩ (by show r.val / 512 < 15; omega) _ j).trans
      (outBlk_apply m c ⟨r.val / 512, hp⟩ _ j)
  · -- the row lies in the last block, at row `r - 7680`
    have e : r = rowOf t0_15 ⟨r.val - 7680, by have := r.isLt; omega⟩ :=
      Fin.ext (by show r.val = 512 * 15 + (r.val - 7680); omega)
    rw [e]
    exact (finalOut_apply_hi m c _ j).trans (lastBlk_apply m c t0_15 _ j)

end Cert.KernelIdeal.KGate

end
-- ==== Proof.RefValue.lean ====
/-
  The reference program's result, read index by index: at token row `r` and expert `j` it is the reference's gate
  formula (`GateSpec.gateR`) of the five argument arrays — two matrix products with their biases, the ReLU between them,
  then the softmax that subtracts the row's maximum before exponentiating.
-/
import proofs.«114928_g52183852646652_cont_8to1_c_617_24_alg».proof.Proof.Gen.ReferenceIdeal.Read
import proofs.«114928_g52183852646652_cont_8to1_c_617_24_alg».proof.Proof.GateSpec
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Read

section Stages

variable (x0 : (⟨S8192x4096, .f32⟩ : BufTy).Contents (Elt Ideal)) (x1 : (⟨S4096x1024, .f32⟩ : BufTy).Contents (Elt Ideal))
  (x2 : (⟨S1024, .f32⟩ : BufTy).Contents (Elt Ideal)) (x3 : (⟨S1024x64, .f32⟩ : BufTy).Contents (Elt Ideal))
  (x4 : (⟨S64, .f32⟩ : BufTy).Contents (Elt Ideal))

/-- The first matrix product plus its bias, clipped below at zero, at token row `r` and hidden unit `k`: the ReLU layer. -/
theorem hidden_apply (r : Fin 8192) (k : Fin 1024) :
    val_main_v4 (F := Ideal) x0 x1 x2 (ix2 r k) = Cert.GateSpec.hidden x0 x1 x2 r k := by
  have el : ∀ d : Fin 4096, lidx_main_v0 (ix2 r k) d = ix2 r d := fun d =>
    funext fun a => Fin.ext (by match a with | ⟨0, _⟩ => rfl | ⟨1, _⟩ => rfl)
  have er : ∀ d : Fin 4096, ridx_main_v0 (ix2 r k) d = ix2 d k := fun d =>
    funext fun a => Fin.ext (by match a with | ⟨0, _⟩ => rfl | ⟨1, _⟩ => rfl)
  have eb : idx_main_v1 (idx_main_v2 (ix2 r k)) = ix1 k :=
    funext fun a => Fin.ext (by match a with | ⟨0, _⟩ => rfl)
  rw [val_main_v4_apply, val_main_v3_apply, val_main_v0_apply, val_main_v2_apply, val_main_v1_apply,
    val_main_call0_v0_apply, val_main_call0_cst_apply, eb]
  simp only [el, er, Ideal.addf_def, Ideal.maximumf_def, Ideal.ofBits_def, Ideal.ofBits_zero_f32]
  rfl

/-- The second matrix product, over the ReLU layer, plus its bias, at token row `r` and expert `j`: the gating logit. -/
theorem logit_apply (r : Fin 8192) (j : Fin 64) :
    val_main_v8 (F := Ideal) x0 x1 x2 x3 x4 (ix2 r j) = Cert.GateSpec.logit x0 x1 x2 x3 x4 r j := by
  have el : ∀ k : Fin 1024, lidx_main_v5 (ix2 r j) k = ix2 r k := fun k =>
    funext fun a => Fin.ext (by match a with | ⟨0, _⟩ => rfl | ⟨1, _⟩ => rfl)
  have er : ∀ k : Fin 1024, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v8_apply, val_main_v5_apply, val_main_v7_apply, val_main_v6_apply, eb]
  simp only [el, er, hidden_apply, Ideal.addf_def]
  rfl

/-- The maximum of a row of logits: the fold of `max` from `-∞` over the experts, and taking the maximum with `-∞`
    once more changes nothing. -/
theorem rowMax_apply (r : Fin 8192) :
    val_main_v11 (F := Ideal) x0 x1 x2 x3 x4 (ix1 r) = Cert.GateSpec.rowMax x0 x1 x2 x3 x4 r := by
  have hR : Shape.Reduces S8192x64 [1] S8192 := by decide
  have elift : ∀ k : Fin 64, hR.lift (ix1 r) k = ix2 r k := fun k =>
    funext fun a => Fin.ext (by match a with | ⟨0, _⟩ => rfl | ⟨1, _⟩ => rfl)
  rw [val_main_v11_apply, val_main_v10_apply, val_main_cst_0_apply]
  unfold val_main_v9
  rw [Host.reduce_eq_fold_single FloatOps.maximumf _ _ Gen.reducesTo_S8192x64_S8192_d1 hR Gen.h_S_, val_main_cst_apply]
  simp only [Ideal.maximumf_def, Ideal.ofBits_def, Cert.GateSpec.ofBits_neg_inf_f32, max_bot_left]
  unfold Cert.GateSpec.rowMax
  show (Finset.univ : Finset (Fin 64)).fold max ⊥ (val_main_v8 (F := Ideal) x0 x1 x2 x3 x4 ∘ hR.lift (ix1 r)) = _
  refine Finset.fold_congr fun k _ => ?_
  exact (congrArg (val_main_v8 (F := Ideal) x0 x1 x2 x3 x4) (elift k)).trans (logit_apply x0 x1 x2 x3 x4 r k)

/-- The exponential of a logit less its row's maximum. -/
theorem shiftedExp_apply (r : Fin 8192) (j : Fin 64) :
    val_main_v15 (F := Ideal) x0 x1 x2 x3 x4 (ix2 r j)
      = Ideal.exp (Cert.GateSpec.logit x0 x1 x2 x3 x4 r j - Cert.GateSpec.rowMax x0 x1 x2 x3 x4 r) := by
  have em : idx_main_v12 (idx_main_v13 (ix2 r j)) = ix1 r :=
    funext fun a => Fin.ext (by match a with | ⟨0, _⟩ => rfl)
  rw [val_main_v15_apply, val_main_v14_apply, val_main_v13_apply, val_main_v12_apply, em, logit_apply, rowMax_apply]
  simp only [Ideal.subf_def, Ideal.hostUnary_exp_def]

/-- The sum over the experts of the shifted exponentials of row `r`. -/
theorem sumShiftedExp_apply (r : Fin 8192) :
    val_main_v16 (F := Ideal) x0 x1 x2 x3 x4 (ix1 r)
      = ∑ j' : Fin 64, Ideal.exp (Cert.GateSpec.logit x0 x1 x2 x3 x4 r j' - Cert.GateSpec.rowMax x0 x1 x2 x3 x4 r) := by
  have es : ∀ k : Fin 64, idx_main_v16 (ix1 r) k = ix2 r k := fun k =>
    funext fun a => Fin.ext (by match a with | ⟨0, _⟩ => rfl | ⟨1, _⟩ => rfl)
  rw [val_main_v16_apply, val_main_cst_1_apply]
  simp only [es, shiftedExp_apply, Ideal.ofBits_def, Ideal.ofBits_zero_f32, zero_add]

end Stages

/-- The last stage of the reference, at an index, is the reference's gate. -/
theorem result_apply (x0 : (⟨S8192x4096, .f32⟩ : BufTy).Contents (Elt Ideal)) (x1 : (⟨S4096x1024, .f32⟩ : BufTy).Contents (Elt Ideal))
    (x2 : (⟨S1024, .f32⟩ : BufTy).Contents (Elt Ideal)) (x3 : (⟨S1024x64, .f32⟩ : BufTy).Contents (Elt Ideal))
    (x4 : (⟨S64, .f32⟩ : BufTy).Contents (Elt Ideal)) (r : Fin 8192) (j : Fin 64) :
    val_main_v19 (F := Ideal) x0 x1 x2 x3 x4 (ix2 r j) = Cert.GateSpec.gateR x0 x1 x2 x3 x4 r j := by
  have ed : idx_main_v17 (idx_main_v18 (ix2 r j)) = ix1 r :=
    funext fun a => Fin.ext (by match a with | ⟨0, _⟩ => rfl)
  rw [val_main_v19_apply, val_main_v18_apply, val_main_v17_apply, ed, shiftedExp_apply, sumShiftedExp_apply]
  simp only [Ideal.hostDivf_def]
  rfl

end Cert.ReferenceIdeal.RefValue

end
-- ==== Proof.FiniteInputs.lean ====
/-
  What the precondition says: each of the five argument arrays has absolute value below `+∞` at every index, so every
  entry is a real number (neither infinity).
-/
import proofs.«114928_g52183852646652_cont_8to1_c_617_24_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic Idealize.ShloMosaic.ValueIdx Cert.Pre_finite_inputs

/-- The f32 word `0x7F800000` is `+∞`. -/
theorem ofBits_inf_eq_top : Ideal.ofBits .f32 0x7F800000#32 = (⊤ : EReal) := by
  simp [Ideal.ofBits, Ideal.ieee]

/-- One value: if `|x| < +∞` holds as a comparison word, `x` is a real number: `max x (-x)` is `⊤` at both infinities. -/
theorem real_of_abs_lt_inf (x : Ideal .f32)
    (hx : FloatOps.cmpf .olt (FloatOps.hostAbsf x) (FloatOps.ofBits (F := Ideal) .f32 0x7F800000#32) = 1#1) :
    ∃ r : ℝ, x = (r : EReal) := by
  have hlt : max (x : EReal) (-(x : EReal)) < ⊤ := by
    have hx' : BitVec.ofBool (decide (max (x : EReal) (-(x : EReal)) < Ideal.ofBits .f32 0x7F800000#32)) = 1#1 := hx
    rw [ofBits_inf_eq_top] at hx'
    by_contra hn
    simp [hn] at hx'
  induction x using EReal.rec with
  | bot => simp at hlt
  | top => simp at hlt
  | coe r => exact ⟨r, rfl⟩

/-- One array of any shape: if the conjunction over all indices of `|x| < +∞` is one, every entry of `x` is a real number.
    The constant `+∞` broadcast from the rank-0 shape reads as `+∞` at every index. -/
theorem real_of_all_abs_lt_inf {s : Shape} {axes : List (Fin s.rank)} {dims : Fin S_.rank → Fin s.rank}
    (x : FVec Ideal s .f32) (hb : S_.BroadcastsInDim s dims) (hr : s.ReducesTo axes S_) (hu : 0 < S_.numel)
    (init : IVec S_ 1) (j : S_.Idx)
    (e : Host.reduce IntOp.andi
        (cmpf .olt (Host.absf x) (broadcastInDim s dims hb (constant (F := Ideal) S_ .f32 0x7F800000#32))) init hr hu j = 1#1)
    (i : s.Idx) : ∃ r : ℝ, x i = (r : EReal) := by
  haveI : Subsingleton S_.Idx := ⟨fun a b => funext fun d => d.elim0⟩
  exact real_of_abs_lt_inf (x i) (Host.reduce_andi_all _ init hr hu j e i)

/-- If the printed predicate is all ones on five arrays, every entry of each is a real number. -/
theorem real_of_pre [Cert.Pre_finite_inputs.Facts]
    (a0 : FVec Ideal S8192x4096 .f32) (a1 : FVec Ideal S4096x1024 .f32) (a2 : FVec Ideal S1024 .f32)
    (a3 : FVec Ideal S1024x64 .f32) (a4 : FVec Ideal S64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- The predicate at its one index is the conjunction of the five reductions, nested to the left.
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all_abs_lt_inf a0 _ _ _ _ _ e0, real_of_all_abs_lt_inf a1 _ _ _ _ _ e1,
    real_of_all_abs_lt_inf a2 _ _ _ _ _ e2, real_of_all_abs_lt_inf a3 _ _ _ _ _ e3,
    real_of_all_abs_lt_inf a4 _ _ _ _ _ e4⟩

end Cert.FiniteInputs

end
-- ==== Proof.lean ====
/-
  The gating network `softmax (relu (x · W1 + b1) · W2 + b2)` over 8192 tokens, as one pipelined kernel against the
  plain reference.

  The kernel walks the tokens in sixteen blocks of 512 rows. At each grid point it multiplies its block by the first
  weight matrix and keeps the block's ReLU layer in a two-slot scratch; the gates of a block are computed one point
  later from the kept slot (exponentials of the logits times the reciprocal of their row sum, with no maximum
  subtracted) and written back as that block of the first output, and the last point also computes its own block's
  gates into a second output, which the host splices into the last 512 rows. The first point reads a slot nothing has
  written: what it computes is never written back. So the result is, row by row, the kernel's gate formula of the
  five arguments (`KernelGate`). The reference computes the softmax with the row's maximum subtracted
  (`RefValue`). Under the precondition every input entry is a real number (`FiniteInputs`), so all logits are real,
  the common factor `exp (-max)` cancels, and the two formulas agree (`GateSpec.gateK_eq_gateR`).

  Each program's frame — it runs to the end, faults nowhere, leaves its arguments as launched — is read off its run:
  the kernel's from the pipeline's launch over relational proof data (`GateLaunch`; the word-level program's instance
  is the same text in its own namespace), the reference's from its run as a list of host operations. The ideal pass
  rewrote nothing, so there is nothing to preserve.
-/
import proofs.«114928_g52183852646652_cont_8to1_c_617_24_alg».proof.Defs
import proofs.«114928_g52183852646652_cont_8to1_c_617_24_alg».proof.Proof.Gen.Kernel
import proofs.«114928_g52183852646652_cont_8to1_c_617_24_alg».proof.Proof.Gen.KernelIdeal
import proofs.«114928_g52183852646652_cont_8to1_c_617_24_alg».proof.Proof.Gen.ReferenceIdeal
import proofs.«114928_g52183852646652_cont_8to1_c_617_24_alg».proof.Proof.Gen.Pre_finite_inputs
import proofs.«114928_g52183852646652_cont_8to1_c_617_24_alg».proof.Proof.Gen.ReferenceIdeal.Run
import proofs.«114928_g52183852646652_cont_8to1_c_617_24_alg».proof.Proof.Gen.ReferenceIdeal.Read
import proofs.«114928_g52183852646652_cont_8to1_c_617_24_alg».proof.Proof.GateLaunch
import proofs.«114928_g52183852646652_cont_8to1_c_617_24_alg».proof.Proof.BitsGateLaunch
import proofs.«114928_g52183852646652_cont_8to1_c_617_24_alg».proof.Proof.KernelGate
import proofs.«114928_g52183852646652_cont_8to1_c_617_24_alg».proof.Proof.RefValue
import proofs.«114928_g52183852646652_cont_8to1_c_617_24_alg».proof.Proof.FiniteInputs
import proofs.«114928_g52183852646652_cont_8to1_c_617_24_alg».proof.Proof.GateSpec
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments unchanged. -/
theorem frame_kernel : Cert.frame_Kernel := fun m ρ _ =>
  (θ_run Cert.Kernel.defs _ _).mono (fun _ h c => (h c).2) (Cert.Kernel.Hand.run_main (F := Bits) m ρ)

/-- So does the idealized kernel. -/
theorem frame_kernelIdeal : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments, all real under the precondition, both programs end with the same
    array: index by index the kernel's gate formula, which is the reference's. -/
theorem algebraic : Cert.algebraic_KernelIdeal_ReferenceIdeal := by
  intro m ρ m' ρ' hpre hagree
  refine ⟨fun c => Cert.KernelIdeal.Hand.finalOut (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  obtain ⟨r0, r1, r2, r3, r4⟩ := Cert.FiniteInputs.real_of_pre _ _ _ _ _ (hpre c)
  rw [Cert.ReferenceIdeal.Read.val_main_v19_eq, h0, h1, h2, h3, h4]
  funext i
  obtain ⟨r, j, rfl⟩ : ∃ (r : Fin 8192) (j : Fin 64), i = ix2 r j := ⟨i 0, i 1, eq_ix2 i⟩
  rw [Cert.ReferenceIdeal.RefValue.result_apply, ← Cert.GateSpec.gateK_eq_gateR _ _ _ _ _ r0 r1 r2 r3 r4]
  exact (Cert.KernelIdeal.KGate.finalOut_apply m c r j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
